-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S1024x1024 : Shape := ⟨2, ![1024, 1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  main_v23

def fn {F : FTy → Type} [FloatOps F] (main_arg0 : FVec F S4x4096x1024 .f32) (main_arg1 : FVec F S1024x1024 .f32) (main_arg2 : FVec F S1024x1024 .f32) (main_arg3 : FVec F S1024x1024 .f32) (main_arg4 : FVec F S1024x1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S4x4096x1024 : Shape := ⟨3, ![4, 4096, 1024]⟩
abbrev S1024x1024 : Shape := ⟨2, ![1024, 1024]⟩
abbrev S4x1024x1024 : Shape := ⟨3, ![4, 1024, 1024]⟩
abbrev S1x512x1024 : Shape := ⟨3, ![1, 512, 1024]⟩
abbrev S1x1024x1024 : Shape := ⟨3, ![1, 1024, 1024]⟩
abbrev S512x1024 : Shape := ⟨2, ![512, 1024]⟩

abbrev nBuf : Space → Nat
  | .hbm => 13
  | .vmem => 15
  | .smem => 0
  | _ => 0

abbrev bufTy : (tb : Table) → Fin (tcTables nBuf tb) → BufTy
  | .hbm, ⟨0, _⟩ => ⟨S4x4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S4x4096x1024, .bf16⟩
  | .hbm, ⟨6, _⟩ => ⟨S1024x1024, .bf16⟩
  | .hbm, ⟨7, _⟩ => ⟨S1024x1024, .bf16⟩
  | .hbm, ⟨8, _⟩ => ⟨S1024x1024, .bf16⟩
  | .hbm, ⟨9, _⟩ => ⟨S1024x1024, .bf16⟩
  | .hbm, ⟨10, _⟩ => ⟨S4x1024x1024, .f32⟩
  | .hbm, ⟨11, _⟩ => ⟨S4x1024x1024, .bf16⟩
  | .hbm, ⟨12, _⟩ => ⟨S4x4096x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | .local _ .vmem, ⟨7, _⟩ => ⟨S1x512x1024, .bf16⟩
  | .local _ .vmem, ⟨8, _⟩ => ⟨S1x512x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1x1024x1024, .bf16⟩
  | .local _ .vmem, ⟨12, _⟩ => ⟨S1x1024x1024, .bf16⟩
  | .local _ .vmem, ⟨13, _⟩ => ⟨S1x512x1024, .f32⟩
  | .local _ .vmem, ⟨14, _⟩ => ⟨S1x512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_13 : BitVec 32 := 0#32
  let v21 : BitVec 1 := Scalar.cmpi .ne v20 c0_i32_13
  v21

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1024x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x512x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  shapeCasts_S512x1024_S1x512x1024 : S512x1024.ShapeCasts S1x512x1024
  dot_S512x1024_S1024x1024_S512x1024_1_0_0_1_n_n_wf : DotDims.WF S512x1024 S1024x1024 S512x1024 [1] [0] [0] [1] [] []
  dot_S512x1024_S512x1024_S1024x1024_0_0_1_1_n_n_wf : DotDims.WF S512x1024 S512x1024 S1024x1024 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S4x4096x1024.size a
  hwx0_0 : ∀ i : grid0.Coords, EltTy.bits .bf16 = 32 ∨ (Rect.block (s := S4x4096x1024) S1x512x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S4x1024x1024.size a
  hwx0_3 : ∀ i : grid0.Coords, EltTy.bits .f32 = 32 ∨ (Rect.block (s := S4x1024x1024) S1x1024x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S4x4096x1024.size a
  hwx1_0 : ∀ i : grid1.Coords, EltTy.bits .bf16 = 32 ∨ (Rect.block (s := S4x4096x1024) S1x512x1024.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S1024x1024.size a
  hwx1_2 : ∀ i : grid1.Coords, EltTy.bits .bf16 = 32 ∨ (Rect.block (s := S1024x1024) S1024x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x1024.size a ≤ S4x1024x1024.size a
  hwx1_3 : ∀ i : grid1.Coords, EltTy.bits .bf16 = 32 ∨ (Rect.block (s := S4x1024x1024) S1x1024x1024.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x512x1024.size a ≤ S4x4096x1024.size a
  hwx1_4 : ∀ i : grid1.Coords, EltTy.bits .f32 = 32 ∨ (Rect.block (s := S4x4096x1024) S1x512x1024.size (cc1_transform_4 i) (hinb1_4 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S512x1024_S1024x1024_0_0_1_1_n_n : DotDims S512x1024 S512x1024 S1024x1024 where
  lhsContracting := [0]
  rhsContracting := [0]
  lhsNonContracting := [1]
  rhsNonContracting := [1]
  lhsBatch := []
  rhsBatch := []
  wf := dot_S512x1024_S512x1024_S1024x1024_0_0_1_1_n_n_wf

abbrev win0_0 : Pipeline.Window sig grid0 :=
  Pipeline.Window.ofSpec (Memref.whole main_v0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v0) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1024x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1x1024x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v7) S1x512x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S4x4096x1024 : Shape := ⟨3, ![4, 4096, 1024]⟩
abbrev S1024x1024 : Shape := ⟨2, ![1024, 1024]⟩
abbrev S4x1024x1024 : Shape := ⟨3, ![4, 1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S4x4096x1024, .f32⟩
  | .hbm, ⟨6, _⟩ => ⟨S4x4096x1024, .f32⟩
  | .hbm, ⟨7, _⟩ => ⟨S4x4096x1024, .f32⟩
  | .hbm, ⟨8, _⟩ => ⟨S4x4096x1024, .f32⟩
  | .hbm, ⟨9, _⟩ => ⟨S4x4096x1024, .f32⟩
  | .hbm, ⟨10, _⟩ => ⟨S4x1024x1024, .f32⟩
  | .hbm, ⟨11, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]

class Facts₀ : Prop where
  dot_S4x4096x1024_S1024x1024_S4x4096x1024_2_0_01_1_n_n_wf : DotDims.WF S4x4096x1024 S1024x1024 S4x4096x1024 [2] [0] [0, 1] [1] [] []
  dot_S4x4096x1024_S4x4096x1024_S4x1024x1024_1_1_2_2_0_0_wf : DotDims.WF S4x4096x1024 S4x4096x1024 S4x1024x1024 [1] [1] [2] [2] [0] [0]
  dot_S4x4096x1024_S4x1024x1024_S4x4096x1024_2_1_1_2_0_0_wf : DotDims.WF S4x4096x1024 S4x1024x1024 S4x4096x1024 [2] [1] [1] [2] [0] [0]

variable [Facts₀]

def dot_S4x4096x1024_S1024x1024_S4x4096x1024_2_0_01_1_n_n : DotDims S4x4096x1024 S1024x1024 S4x4096x1024 where
  lhsContracting := [2]
  rhsContracting := [0]
  lhsNonContracting := [0, 1]
  rhsNonContracting := [1]
  lhsBatch := []
  rhsBatch := []
  wf := dot_S4x4096x1024_S1024x1024_S4x4096x1024_2_0_01_1_n_n_wf
def dot_S4x4096x1024_S4x4096x1024_S4x1024x1024_1_1_2_2_0_0 : DotDims S4x4096x1024 S4x4096x1024 S4x1024x1024 where
  lhsContracting := [1]
  rhsContracting := [1]
  lhsNonContracting := [2]
  rhsNonContracting := [2]
  lhsBatch := [0]
  rhsBatch := [0]
  wf := dot_S4x4096x1024_S4x4096x1024_S4x1024x1024_1_1_2_2_0_0_wf
def dot_S4x4096x1024_S4x1024x1024_S4x4096x1024_2_1_1_2_0_0 : DotDims S4x4096x1024 S4x1024x1024 S4x4096x1024 where
  lhsContracting := [2]
  rhsContracting := [1]
  lhsNonContracting := [1]
  rhsNonContracting := [2]
  lhsBatch := [0]
  rhsBatch := [0]
  wf := dot_S4x4096x1024_S4x1024x1024_S4x4096x1024_2_1_1_2_0_0_wf

class Facts : Prop extends Facts₀ where

variable [Facts]
-- ==== Proof.LibWholePiece.lean ====
/-
  A store that covers its whole buffer, at the head of a list of pieces written into a view: whatever the later
  pieces in the list hold, the buffer reads back as that store's value. General in the shape, the element type
  and the view.
-/
import Idealize.ShloMosaic.Lib.Pipeline.FrameBody
import Idealize.ShloMosaic.Lib.Pipeline.Value

noncomputable section

namespace Cert.LibWholePiece

open Idealize.ShloMosaic

variable {Val : EltTy → Type} {S : Shape} {e : EltTy}

/-- A piece over the whole buffer (the unit rectangle from the origin with the buffer's own extents) at the head
    of a list covers every index. -/
theorem cover_head_whole {off : Fin S.rank → Nat} (h : off = fun _ => 0) (inb : ∀ a, off a + S.size a ≤ S.size a)
    (w : S.Idx → Val e) (L : List (View.Piece Val S e)) (y : S.Idx) :
    ∃ p ∈ ((⟨Rect.unit off S.size inb, w⟩ : View.Piece Val S e) :: L), y ∈ p.1.set := by
  subst h
  exact ⟨_, List.mem_cons_self .., by
    show y ∈ (Rect.whole S).set; rw [Rect.set_whole]; exact Finset.mem_univ y⟩

/-- Written last over the whole buffer, a value is what the buffer reads back as. -/
theorem read_writes_head_whole [∀ e, Nonempty (Val e)] {sig : RefSig} {κ : Kind} {sp : Space} (v : View sig κ sp S e)
    (f : v.ty.Contents Val) {off : Fin S.rank → Nat} (h : off = fun _ => 0) (inb : ∀ a, off a + S.size a ≤ S.size a)
    (w : S.Idx → Val e) (L : List (View.Piece Val S e)) :
    v.read Val (v.writes Val f ((⟨Rect.unit off S.size inb, w⟩ : View.Piece Val S e) :: L)) = w := by
  rw [View.read_writes_eq_canon v f _ (cover_head_whole h inb w L), View.canon_cons_unit_zero h inb w L]

end Cert.LibWholePiece

end
-- ==== Proof.K.Region0Runs.lean ====
/-
  The first kernel region (the key-value product of each batch, accumulated over its eight row tiles) on whole
  staging memrefs: where the body's two conditions hold on the grid, where the output window is idle, and the
  body's run in each of its three control cases, with what it leaves in the accumulator scratch and in the output
  window's staging buffer named as functions of the blocks it read.

  A grid point is `8·b + n`: batch `b`, row tile `n`. At `n = 0` the body first stores zeros into the accumulator;
  at every point it adds the tile's keyᵀ·value to the accumulator; at `n = 7` it copies the accumulator to the
  output block. Every access is of a whole buffer, so each buffer reads back as the last value stored into it.
-/
import proofs.«142361_j103079215338_1_alg».proof.Proof.Gen.Kernel.Launch
import proofs.«142361_j103079215338_1_alg».proof.Proof.Gen.Kernel.Skeleton
import proofs.«142361_j103079215338_1_alg».proof.Proof.Gen.Kernel.Points
import proofs.«142361_j103079215338_1_alg».proof.Proof.LibWholePiece
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.LibWholePiece

/-! ## The body's two conditions, over the grid -/

/-- "This is the batch's first row tile": the condition of the body's first conditional. -/
abbrev cond0_0 (i : grid0.Coords) : Prop := (Scalar.cmpi .ne (Scalar.extui (Scalar.cmpi .eq (BitVec.ofNat 32 (i 1).val) 0#32)) 0#32) = 1#1
/-- It holds at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- "This is the batch's last row tile": the condition of the body's second conditional. -/
abbrev cond0_1 (i : grid0.Coords) : Prop := k0_cond2 i = 1#1
/-- It holds at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Off a batch's last tile the output window is idle (the body stores nothing into it) and is not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- On a batch's last tile it is live. -/
theorem liveAt0_3 : ∀ t : Fin cfg0.N, cond0_1 (grid0.coords t) → cfg0.idle 3 (grid0.coords t) = false := by decide +kernel

/-! ## The body's accesses: each buffer is read or written whole -/

abbrev rX0 : Rect S1x512x1024 := Rect.unit (s := S1x512x1024) ![0, 0, 0] S1x512x1024.size inb_S1x512x1024_S1x512x1024_0_0_0
abbrev rW0 : Rect S1024x1024 := Rect.unit (s := S1024x1024) ![0, 0] S1024x1024.size inb_S1024x1024_S1024x1024_0_0
abbrev rO0 : Rect S1x1024x1024 := Rect.unit (s := S1x1024x1024) ![0, 0, 0] S1x1024x1024.size inb_S1x1024x1024_S1x1024x1024_0_0_0

theorem hz2 : (![0, 0] : Fin 2 → Nat) = fun _ => 0 := by
  funext a; match a with | ⟨0, _⟩ => rfl | ⟨1, _⟩ => rfl
theorem hz3 : (![0, 0, 0] : Fin 3 → Nat) = fun _ => 0 := by
  funext a; match a with | ⟨0, _⟩ => rfl | ⟨1, _⟩ => rfl | ⟨2, _⟩ => rfl

/-! ## What the body leaves -/

/-- The accumulator after a batch's first tile: the zeros the body has just stored plus the tile's keyᵀ·value. -/
def accFirst (x0 : Vec F S1x512x1024 .bf16) (x1 x2 : Vec F S1024x1024 .bf16) : Vec F S1024x1024 .f32 :=
  k0_pay2 (View.ld x0 rX0) (View.ld x1 rW0) (View.ld x2 rW0) (k0_pay1 (F := F))

/-- The accumulator after a later tile: what the tile before left plus this tile's keyᵀ·value. -/
def accNext (xs : Vec F S1024x1024 .f32) (x0 : Vec F S1x512x1024 .bf16) (x1 x2 : Vec F S1024x1024 .bf16) : Vec F S1024x1024 .f32 :=
  k0_pay2 (View.ld x0 rX0) (View.ld x1 rW0) (View.ld x2 rW0) (View.ld xs rW0)

/-- The output block on a batch's last tile: the accumulator, given a leading unit axis. -/
def outLast (a : Vec F S1024x1024 .f32) : Vec F S1x1024x1024 .f32 := k0_pay3 a

/-! ## The body's run, case by case -/

set_option maxHeartbeats 1000000 in
/-- A batch's first tile: the accumulator at anything ends at `accFirst` of the three input blocks; the output
    window's buffer is not touched. -/
theorem runFirst (c : Dev nD) (E : Set ℕ) (i : grid0.Coords)
    (arg2 : Memref sig .tc .vmem S1x512x1024 .bf16) (harg2 : arg2.IsWhole) (arg3 : Memref sig .tc .vmem S1024x1024 .bf16) (harg3 : arg3.IsWhole)
    (arg4 : Memref sig .tc .vmem S1024x1024 .bf16) (harg4 : arg4.IsWhole) (arg5 : Memref sig .tc .vmem S1x1024x1024 .f32) (harg5 : arg5.IsWhole)
    (arg6 : Memref sig .tc .vmem S1024x1024 .f32) (harg6 : arg6.IsWhole) (hc0 : cond0_0 i) (hc1 : ¬cond0_1 i)
    (x0 : Vec F S1x512x1024 .bf16) (x1 x2 : Vec F S1024x1024 .bf16) (xi : Vec F S1x1024x1024 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare xi ∗ owns (c : Thread nD τ) arg6 fullShare (accFirst x0 x1 x2)) -∗ K ⟨⟩))
      ⊢ wp frame (wpE (defs₀ (F := F)) Variants.none c none) E (cc0__kv_kernel i arg2 harg2 arg3 harg3 arg4 harg4 arg5 harg5 arg6 harg6) K := by
  simp only [cc0__kv_kernel_eq_skeleton]; unfold cc0__kv_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec (disch := first | exact hc0 | exact hc1)
  sl_step
  sl_unfold_words
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  unfold accFirst
  rw [read_writes_head_whole _ _ hz2, View.readCov_unit_zero _ hz2]
  rfl

set_option maxHeartbeats 1000000 in
/-- A middle tile: the accumulator at `xs` ends at `accNext xs` of the three input blocks; the output window's
    buffer is not touched. -/
theorem runMiddle (c : Dev nD) (E : Set ℕ) (i : grid0.Coords)
    (arg2 : Memref sig .tc .vmem S1x512x1024 .bf16) (harg2 : arg2.IsWhole) (arg3 : Memref sig .tc .vmem S1024x1024 .bf16) (harg3 : arg3.IsWhole)
    (arg4 : Memref sig .tc .vmem S1024x1024 .bf16) (harg4 : arg4.IsWhole) (arg5 : Memref sig .tc .vmem S1x1024x1024 .f32) (harg5 : arg5.IsWhole)
    (arg6 : Memref sig .tc .vmem S1024x1024 .f32) (harg6 : arg6.IsWhole) (hc0 : ¬cond0_0 i) (hc1 : ¬cond0_1 i)
    (x0 : Vec F S1x512x1024 .bf16) (x1 x2 : Vec F S1024x1024 .bf16) (xi : Vec F S1x1024x1024 .f32) (xs : Vec F S1024x1024 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare xi ∗ owns (c : Thread nD τ) arg6 fullShare (accNext xs x0 x1 x2)) -∗ K ⟨⟩))
      ⊢ wp frame (wpE (defs₀ (F := F)) Variants.none c none) E (cc0__kv_kernel i arg2 harg2 arg3 harg3 arg4 harg4 arg5 harg5 arg6 harg6) K := by
  simp only [cc0__kv_kernel_eq_skeleton]; unfold cc0__kv_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0; subst hf1; subst hf2; subst hf3; subst hf4
  sl_exec (disch := first | exact hc0 | exact hc1)
  sl_step
  sl_unfold_words
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  unfold accNext
  rw [read_writes_head_whole _ _ hz2]
  rfl

set_option maxHeartbeats 1000000 in
/-- A batch's last tile: the accumulator at `xs` ends at `accNext xs` of the three input blocks, and the output
    window's buffer, at anything, ends at that accumulator with a leading unit axis. -/
theorem runLast (c : Dev nD) (E : Set ℕ) (i : grid0.Coords)
    (arg2 : Memref sig .tc .vmem S1x512x1024 .bf16) (harg2 : arg2.IsWhole) (arg3 : Memref sig .tc .vmem S1024x1024 .bf16) (harg3 : arg3.IsWhole)
    (arg4 : Memref sig .tc .vmem S1024x1024 .bf16) (harg4 : arg4.IsWhole) (arg5 : Memref sig .tc .vmem S1x1024x1024 .f32) (harg5 : arg5.IsWhole)
    (arg6 : Memref sig .tc .vmem S1024x1024 .f32) (harg6 : arg6.IsWhole) (hc0 : ¬cond0_0 i) (hc1 : cond0_1 i)
    (x0 : Vec F S1x512x1024 .bf16) (x1 x2 : Vec F S1024x1024 .bf16) (xs : Vec F S1024x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (outLast (accNext xs x0 x1 x2)) ∗ owns (c : Thread nD τ) arg6 fullShare (accNext xs x0 x1 x2)) -∗ K ⟨⟩))
      ⊢ wp frame (wpE (defs₀ (F := F)) Variants.none c none) E (cc0__kv_kernel i arg2 harg2 arg3 harg3 arg4 harg4 arg5 harg5 arg6 harg6) K := by
  simp only [cc0__kv_kernel_eq_skeleton]; unfold cc0__kv_kernel_skel
  unfold owns
  iintro ⟨⟨%f0, %hf0, H0⟩, ⟨%f1, %hf1, H1⟩, ⟨%f2, %hf2, H2⟩, ⟨%d3, %f3, -, H3⟩, ⟨%f4, %hf4, H4⟩, Hk⟩
  subst hf0; subst hf1; subst hf2; subst hf4
  sl_exec (disch := first | exact hc0 | exact hc1)
  sl_step
  sl_unfold_words
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    unfold outLast accNext
    rw [read_writes_head_whole _ _ hz3, View.readCov_unit_zero _ hz2]
    rfl
  iexists _; isplitr
  swap; · iexact H4
  ipureintro
  unfold accNext
  rw [read_writes_head_whole _ _ hz2]
  rfl

end Cert.Kernel.Hand

end
-- ==== Proof.K.Region0.lean ====
/-
  The first kernel region on any entry contents `V` of the core's buffers: each window's block at a grid point,
  the accumulator scratch after each point as a recursion over the grid (reset at a batch's first row tile, added
  to at the others), the invariant that carries it from point to point, the region's proof data, and the body
  obligation by cases on the two conditions' closed forms.
-/
import proofs.«142361_j103079215338_1_alg».proof.Proof.K.Region0Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the point fetches it or the
    block index has not moved since the fetch: the activations' row tile, -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- the key weights, -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- the value weights. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The staging memrefs and the scratch -/

abbrev ms0_0 (t : Fin cfg0.N) : Memref sig .tc .vmem S1x512x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024x1024 .f32 := win0_3.stage (cfg0.slots t 3)
abbrev hs0_3 (t : Fin cfg0.N) : (ms0_3 t).IsWhole := hstage0_3 ((cfg0.slots t 3).cast nbuf0_3)
/-- The accumulator: a whole scoped buffer of the kernel's own, passed beside the windows. -/
abbrev scM0 : Memref sig .tc .vmem S1024x1024 .f32 := Memref.whole cc0_scratch0

/-- The scoped buffers that are neither a staging buffer of this region nor its accumulator (the other region's
    staging buffers), each whole at some contents: they ride along untouched. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- The invariant that names nothing: the accumulator at anything, the other scoped buffers at anything, the
    generator register at some state. -/
theorem PhiA0_eq (c : Dev nD) :
    (Pipeline.ΦA spec0 c : sProp 𝕄)
      = iprop(iprop((∃ d, owns (c : Thread nD τ) scM0 fullShare d) ∗ others0 c) ∗ (∃ r, prngReg c r)) := by
  unfold Pipeline.ΦA others0; rw [scopedRest0_eq]; simp only [scM0, owns_whole]; try rfl

/-! ## The accumulator after each point -/

/-- What the accumulator holds after the body at position `n`: at a batch's first row tile the reset accumulator
    plus that tile's product, elsewhere what the point before left plus this tile's product. -/
def accAt0 (c : Dev nD) : (n : ℕ) → n < cfg0.N → Vec F S1024x1024 .f32
  | 0, hn => accFirst (iblk0 V c 0 ⟨0, hn⟩) (iblk0 V c 1 ⟨0, hn⟩) (iblk0 V c 2 ⟨0, hn⟩)
  | n + 1, hn =>
    if (n + 1) % 8 = 0 then
      accFirst (iblk0 V c 0 ⟨n + 1, hn⟩) (iblk0 V c 1 ⟨n + 1, hn⟩) (iblk0 V c 2 ⟨n + 1, hn⟩)
    else
      accNext (accAt0 c n (Nat.lt_of_succ_lt hn)) (iblk0 V c 0 ⟨n + 1, hn⟩) (iblk0 V c 1 ⟨n + 1, hn⟩) (iblk0 V c 2 ⟨n + 1, hn⟩)

/-- At a batch's first row tile. -/
theorem accAt0_first (c : Dev nD) (t : Fin cfg0.N) (h0 : t.val % 8 = 0) :
    accAt0 V c t.val t.isLt = accFirst (iblk0 V c 0 t) (iblk0 V c 1 t) (iblk0 V c 2 t) := by
  obtain ⟨n, hn⟩ := t
  cases n with
  | zero => rfl
  | succ n => exact (if_pos h0)

/-- At a later row tile. -/
theorem accAt0_next (c : Dev nD) (t : Fin cfg0.N) (h0 : ¬t.val % 8 = 0) :
    accAt0 V c t.val t.isLt = accNext (accAt0 V c (t.val - 1) (Nat.lt_of_le_of_lt (Nat.sub_le _ _) t.isLt)) (iblk0 V c 0 t) (iblk0 V c 1 t) (iblk0 V c 2 t) := by
  obtain ⟨n, hn⟩ := t
  cases n with
  | zero => exact absurd (Nat.zero_mod _) h0
  | succ n => exact (if_neg h0)

/-- The region invariant before position `n`: before the first point nothing is named; afterwards the accumulator
    holds what the point before left. -/
def PhiS0 (c : Dev nD) : (n : ℕ) → n ≤ cfg0.N → sProp 𝕄
  | 0, _ => Pipeline.ΦA spec0 c
  | n + 1, hn => iprop(iprop(owns (c : Thread nD τ) scM0 fullShare (accAt0 V c n hn) ∗ others0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare (accAt0 V c n hn) ∗ others0 c) ∗ (∃ r, prngReg c r)) := rfl

theorem PhiS0_pos (c : Dev nD) (n : ℕ) (h : n ≤ cfg0.N) (hz : n ≠ 0) :
    PhiS0 V c n h = iprop(iprop(owns (c : Thread nD τ) scM0 fullShare (accAt0 V c (n - 1) (by omega)) ∗ others0 c) ∗ (∃ r, prngReg c r)) := by
  cases n with
  | zero => exact absurd rfl hz
  | succ n => rfl

/-! ## The region's proof data -/

/-- The proof data of the region on core `c`: the arrays as the region finds them; after the body at point `t` each
    input's buffer at its block and the output's at the accumulator with a leading unit axis (consulted only at a
    batch's last row tile: elsewhere the window is idle and not written back); the invariant carries the
    accumulator; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outLast (accAt0 V c t.val t.isLt)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = outLast (accAt0 V c t.val t.isLt) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

theorem leaves0_0 (c : Dev nD) (t : Fin cfg0.N) :
    (dat0 V c).leavesExact 0 t = owns (c : Thread nD τ) (ms0_0 t) fullShare (iblk0 V c 0 t) := by
  unfold Dat.leavesExact; rw [liveAt0_0 t, after0_0]
theorem leaves0_1 (c : Dev nD) (t : Fin cfg0.N) :
    (dat0 V c).leavesExact 1 t = owns (c : Thread nD τ) (ms0_1 t) fullShare (iblk0 V c 1 t) := by
  unfold Dat.leavesExact; rw [liveAt0_1 t, after0_1]
theorem leaves0_2 (c : Dev nD) (t : Fin cfg0.N) :
    (dat0 V c).leavesExact 2 t = owns (c : Thread nD τ) (ms0_2 t) fullShare (iblk0 V c 2 t) := by
  unfold Dat.leavesExact; rw [liveAt0_2 t, after0_2]

set_option maxHeartbeats 4800000 in
/-- The body at any point. The inputs' memrefs hold their blocks; the closed forms say which case the point is in;
    the invariant hands the body the accumulator at what the point before left (at anything before the first point)
    and takes it back at this point's contents; off a batch's last tile the output window's buffer is handed back as
    found, on it the buffer ends at the accumulator; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2]
  have hN : t.val < 32 := lt_of_lt_of_eq t.isLt (show cfg0.N = 32 from N_0)
  by_cases h0 : t.val % 8 = 0
  · have h1 : ¬t.val % 8 = 7 := by omega
    have hc0 : cond0_0 (grid0.coords t) := (hcond0_0 t).mpr h0
    have hc1 : ¬cond0_1 (grid0.coords t) := fun h => h1 ((hcond0_1 t).mp h)
    rw [Dat.leavesExact_idle (dat0 V c) 3 t (idleAt0_3 t hc1) (noFlush0_3 t hc1)]
    rw [accAt0_first V c t h0]
    by_cases hz : t.val = 0
    · rw [PhiS0_castSucc V c t, PhiS0_zero V c _ _ hz, PhiA0_eq]
      iintro ⟨⟨⟨HS, Hoth⟩, Hg⟩, Ho, ⟨%d0, H0⟩, ⟨%d1, H1⟩, ⟨%d2, H2⟩, ⟨%d3, H3⟩⟩
      iapply (runFirst c Set.univ (grid0.coords t) _ _ _ _ _ _ _ _ _ _ hc0 hc1 (iblk0 V c 0 t) (iblk0 V c 1 t) (iblk0 V c 2 t) _ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      iexists _; iexact H3
    · rw [PhiS0_castSucc V c t, PhiS0_pos V c _ _ hz]
      iintro ⟨⟨⟨HS, Hoth⟩, Hg⟩, Ho, ⟨%d0, H0⟩, ⟨%d1, H1⟩, ⟨%d2, H2⟩, ⟨%d3, H3⟩⟩
      iapply (runFirst c Set.univ (grid0.coords t) _ _ _ _ _ _ _ _ _ _ hc0 hc1 (iblk0 V c 0 t) (iblk0 V c 1 t) (iblk0 V c 2 t) _ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      iexists _; iexact H3
  · have hz : t.val ≠ 0 := fun e => h0 (by rw [e])
    have hc0 : ¬cond0_0 (grid0.coords t) := fun h => h0 ((hcond0_0 t).mp h)
    rw [accAt0_next V c t h0]
    rw [PhiS0_castSucc V c t, PhiS0_pos V c _ _ hz]
    by_cases h1 : t.val % 8 = 7
    · have hc1 : cond0_1 (grid0.coords t) := (hcond0_1 t).mpr h1
      rw [show (dat0 V c).leavesExact 3 t = owns (c : Thread nD τ) (ms0_3 t) fullShare ((dat0 V c).after 3 t) from by
        unfold Dat.leavesExact; rw [liveAt0_3 t hc1], after0_3, accAt0_next V c t h0]
      iintro ⟨⟨⟨HS, Hoth⟩, Hg⟩, Ho, ⟨%d0, H0⟩, ⟨%d1, H1⟩, ⟨%d2, H2⟩, ⟨%d3, H3⟩⟩
      iapply (runLast c Set.univ (grid0.coords t) _ _ _ _ _ _ _ _ _ _ hc0 hc1 (iblk0 V c 0 t) (iblk0 V c 1 t) (iblk0 V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      iexact H3
    · have hc1 : ¬cond0_1 (grid0.coords t) := fun h => h1 ((hcond0_1 t).mp h)
      rw [Dat.leavesExact_idle (dat0 V c) 3 t (idleAt0_3 t hc1) (noFlush0_3 t hc1)]
      iintro ⟨⟨⟨HS, Hoth⟩, Hg⟩, Ho, ⟨%d0, H0⟩, ⟨%d1, H1⟩, ⟨%d2, H2⟩, ⟨%d3, H3⟩⟩
      iapply (runMiddle c Set.univ (grid0.coords t) _ _ _ _ _ _ _ _ _ _ hc0 hc1 (iblk0 V c 0 t) (iblk0 V c 1 t) (iblk0 V c 2 t) _ _ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the unnamed one back: the accumulator's contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS, Hoth⟩, Hg⟩
  isplitl [HS Hoth]
  · isplitl [HS]
    · iexists _; iexact HS
    iexact Hoth
  iexact Hg

/-- The same after the last point. -/
theorem hout0 (c : Dev nD) : (dat0 V c).Φ (Fin.last cfg0.N) ⊢ Pipeline.ΦA spec0 c :=
  Phi_out0 V c _ (by rw [Fin.val_last]; have : cfg0.N = 32 := N_0; omega)

end Cert.Kernel.Hand

end
-- ==== Proof.K.Region1.lean ====
/-
  The second kernel region (the gated query against the key-value product) on any entry contents `V` of the
  core's buffers: each window's block at a grid point, what the body's one store leaves in the output window's
  staging buffer as a function of the four input blocks, the body's triple, and the region's proof data with
  its body obligation. The body keeps nothing between grid points: every point reads its four input blocks and
  stores the whole output block.
-/
import proofs.«142361_j103079215338_1_alg».proof.Proof.Gen.Kernel.Launch
import proofs.«142361_j103079215338_1_alg».proof.Proof.Gen.Kernel.Skeleton
import proofs.«142361_j103079215338_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether the point fetches it or the
    block index has not moved since the fetch: the activations' row tile, -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- the left query weights, -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- the right query weights, -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- the batch's key-value product. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer is read or written whole -/

abbrev rX1 : Rect S1x512x1024 := Rect.unit (s := S1x512x1024) ![0, 0, 0] S1x512x1024.size inb_S1x512x1024_S1x512x1024_0_0_0
abbrev rW1 : Rect S1024x1024 := Rect.unit (s := S1024x1024) ![0, 0] S1024x1024.size inb_S1024x1024_S1024x1024_0_0
abbrev rKV1 : Rect S1x1024x1024 := Rect.unit (s := S1x1024x1024) ![0, 0, 0] S1x1024x1024.size inb_S1x1024x1024_S1x1024x1024_0_0_0

/-! ## What the body leaves in the output window's buffer -/

/-- The output window's staging buffer after the body, from the four input blocks: its one store, covering the
    whole block, of the gated query times the key-value product. -/
def out1_4 (x0 : Vec F S1x512x1024 .bf16) (x1 x2 : Vec F S1024x1024 .bf16) (x3 : Vec F S1x1024x1024 .bf16) : Vec F S1x512x1024 .f32 :=
  View.canon [⟨rX1, k1_pay1 (View.ld x0 rX1) (View.ld x1 rW1) (View.ld x2 rW1) (View.ld x3 rKV1)⟩]

/-- The one store tiles the buffer, so it covers it. -/
theorem cover1_4 (p0 : Vec F S1x512x1024 .f32) (y : S1x512x1024.Idx) :
    ∃ pc ∈ ([⟨rX1, p0⟩] : List (View.Piece (Elt F) S1x512x1024 .f32)), y ∈ pc.1.set :=
  View.cover_of_tiled [⟨rX1, p0⟩] S1x512x1024.size (by rfl) y

/-! ## The body's triple -/

set_option maxHeartbeats 1000000 in
/-- The body on whole staging memrefs, the inputs' at contents `x0 … x3` and the output's at anything, runs to the
    continuation holding the inputs' as they were and the output's at `out1_4` of them. -/
theorem sound_kernel1 (c : Dev nD) (E : Set ℕ) (i : grid1.Coords)
    (arg2 : Memref sig .tc .vmem S1x512x1024 .bf16) (harg2 : arg2.IsWhole) (arg3 : Memref sig .tc .vmem S1024x1024 .bf16) (harg3 : arg3.IsWhole)
    (arg4 : Memref sig .tc .vmem S1024x1024 .bf16) (harg4 : arg4.IsWhole) (arg5 : Memref sig .tc .vmem S1x1024x1024 .bf16) (harg5 : arg5.IsWhole)
    (arg6 : Memref sig .tc .vmem S1x512x1024 .f32) (harg6 : arg6.IsWhole)
    (x0 : Vec F S1x512x1024 .bf16) (x1 x2 : Vec F S1024x1024 .bf16) (x3 : Vec F S1x1024x1024 .bf16) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out1_4 x0 x1 x2 x3)) -∗ K ⟨⟩))
      ⊢ wp frame (wpE (defs₀ (F := F)) Variants.none c none) E (cc1__out_kernel i arg2 harg2 arg3 harg3 arg4 harg4 arg5 harg5 arg6 harg6) K := by
  simp only [cc1__out_kernel_eq_skeleton]; unfold cc1__out_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The region's proof data -/

/-- The proof data of the region on core `c`: the arrays as the region finds them; after the body at point `t` each
    input's buffer at its block and the output's at `out1_4` of the four input blocks; the invariant says only that
    the other scoped buffers and the generator register are left alone; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so the triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Run.lean ====
/-
  The whole program's run: the contents of the core's buffers at each boundary between @main's four items (five
  format changes on the host, the first kernel region, one format change, the second kernel region) as a fold from
  the launch memory; each region as a segment entered from the contents before it and left at the contents after
  it; and the launch over the four segments, whose post reads every unscoped buffer off the last contents. The frame
  (every argument array ends as launched) and the result array's contents are both read from that one run.
-/
import proofs.«142361_j103079215338_1_alg».proof.Proof.K.Region0
import proofs.«142361_j103079215338_1_alg».proof.Proof.K.Region1
import proofs.«142361_j103079215338_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => m ((c : Dev nD), b)
/-- After the five format changes (the first region's entry). -/
abbrev W1 : Dev nD → Valuation τ sig (Elt F) := fun c => StableHlo.after hostOps0 (W0 m c)
/-- The same read at the TensorCore's references (what the first region's proof data take). -/
abbrev V1 : (c : Dev nD) → (b : Ref sig .tc) → Buf (Elt F) ((c : Thread nD τ).loc b) := fun c b => W1 m c b
/-- At the first region's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the one format change between the regions (the second region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the second region's exit: its arrays at what the pipeline leaves, every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ### The arguments end as launched: no host operation writes one, and neither region has one among its arrays -/

/-- A buffer that neither host stretch writes and that is no array of either region ends as launched. -/
theorem W4_kept (c : Dev nD) (r : Ref sig .tc) (h0 : r ∉ hostOps0_W) (h1 : r ∉ hostOps1_W)
    (ha0 : ∀ w, Pipeline.arrRef spec0 w ≠ r) (ha1 : ∀ w, Pipeline.arrRef spec1 w ≠ r) :
    W4 m c (Proc.devRef .tc r) = m ((c : Thread nD τ).loc r) :=
  calc W4 m c (Proc.devRef .tc r)
    _ = W3 m c (Proc.devRef .tc r) := W4_of_ne m c r ha1
    _ = W2 m c (Proc.devRef .tc r) := StableHlo.after_of_writes_sub hostOps1 _ hostOps1_writes h1
    _ = W1 m c (Proc.devRef .tc r) := W2_of_ne m c r ha0
    _ = W0 m c (Proc.devRef .tc r) := StableHlo.after_of_writes_sub hostOps0 _ hostOps0_writes h0
    _ = m ((c : Thread nD τ).loc r) := rfl

theorem W4_main_arg0 (c : Dev nD) : W4 m c (Proc.devRef .tc main_arg0) = m ((c : Thread nD τ).loc main_arg0) :=
  W4_kept m c main_arg0 (by decide) (by decide) (by decide) (by decide)
theorem W4_main_arg1 (c : Dev nD) : W4 m c (Proc.devRef .tc main_arg1) = m ((c : Thread nD τ).loc main_arg1) :=
  W4_kept m c main_arg1 (by decide) (by decide) (by decide) (by decide)
theorem W4_main_arg2 (c : Dev nD) : W4 m c (Proc.devRef .tc main_arg2) = m ((c : Thread nD τ).loc main_arg2) :=
  W4_kept m c main_arg2 (by decide) (by decide) (by decide) (by decide)
theorem W4_main_arg3 (c : Dev nD) : W4 m c (Proc.devRef .tc main_arg3) = m ((c : Thread nD τ).loc main_arg3) :=
  W4_kept m c main_arg3 (by decide) (by decide) (by decide) (by decide)
theorem W4_main_arg4 (c : Dev nD) : W4 m c (Proc.devRef .tc main_arg4) = m ((c : Thread nD τ).loc main_arg4) :=
  W4_kept m c main_arg4 (by decide) (by decide) (by decide) (by decide)

/-- The result array ends at what the second region's write-backs leave. -/
theorem W4_main_v7 (c : Dev nD) : W4 m c (Proc.devRef .tc main_v7) = (dat1 (V3 m) c).arrAt 4 cfg1.N :=
  W4_arr m c 4

/-! ## The proof data family and the thread state -/

/-- The prefetched tables' admissible contents: no pipeline has a table. -/
abbrev adm' : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm' p) c
  | ⟨0, _⟩ => fun c => dat0 (V1 m) c
  | ⟨1, _⟩ => fun c => dat1 (V3 m) c
abbrev 𝒱₀ : Variants := Variants.none
/-- No core owes another anything: no level is assigned. -/
abbrev L' : GSem nD τ sig → Finset Unit := fun _ => ∅
abbrev lv' : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L' lv' :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register at some state. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- The first region over the thread state: entered from every unscoped buffer at `W1`, left at `W2`. Its arrays are split
    out of the unscoped buffers and put back at the exit contents; the generator register and the scoped buffers go into the
    invariant, which names the accumulator from the first point on and forgets it at the exit; nothing owed; no semaphore of
    the kernel's own. -/
def reg0 : Pipeline.RegionSeg (pcfgs (F := F)) adm' (pdats m) () defs₀ 𝒱₀ L' lv' 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L' lv' 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm' (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop(Pipeline.scopedRest (Ix := Unit) (Name := ℕ) (U := UR sig nD τ) (Lvl := ℕ) (Val := Elt F) spec0 c ∗ ∃ r, prngReg c r) : sProp 𝕄)
        ⊢ (pdats m 0 c).Φ 0 := hin0 (V1 m) c
    iintro ⟨Hp, -, Hr⟩
    iapply h
    isplitl [Hr]; · iexact Hr
    iexact Hp
  hout c := by
    rw [Pipeline.ownSems0_none]
    have h : (pdats m 0 c).Φ (Fin.last _)
        ⊢ (iprop(Pipeline.scopedRest (Ix := Unit) (Name := ℕ) (U := UR sig nD τ) (Lvl := ℕ) (Val := Elt F) spec0 c ∗ ∃ r, prngReg c r) : sProp 𝕄) :=
      hout0 (V1 m) c
    iintro Hphi
    ihave H := h $$ Hphi
    icases H with ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at `W3`, left at `W4`. Its arrays are split
    out of the unscoped buffers and put back at the exit contents; the generator register and the scoped buffers pass through
    the invariant untouched; nothing owed; no semaphore of the kernel's own. -/
def reg1 : Pipeline.RegionSeg (pcfgs (F := F)) adm' (pdats m) () defs₀ 𝒱₀ L' lv' 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L' lv' 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm' (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's four segments in order. -/
abbrev segs' : List (Pipeline.Seg (pcfgs (F := F)) adm' (pdats m) () defs₀ 𝒱₀ L' lv') :=
  [ .host (hseg hostOps0 hostOps0_sub hostOps0_fresh (W0 m)),
    .region (reg0 m),
    .host (hseg hostOps1 hostOps1_sub hostOps1_fresh (W2 m)),
    .region (reg1 m) ]
/-- @main is the run of the segments. -/
theorem main_run (c : Dev nD) : main (F := F) c = Pipeline.Seg.run (segs' m) := (main_chain c).trans (by chain_rfl)

set_option backward.isDefEq.respectTransparency.types false in
/-- THE RUN. At the compiled mesh, from any memory with zero counters, every weakly fair execution of @main terminates,
    nothing faulting, and in every final state each unscoped buffer holds the last contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm' (pdats m) () cellOf_inj emb₁ defs₀ 𝒱₀ L' lv' m ρ main (segs' m)
    (fun c Q => by rw [main_run m c])
    (by simp only [segs', Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L' lv' fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c)⟩) (run_all m ρ)

/-- THE RUN WITH THE RESULT NAMED: the result array ends at what the second region's write-backs leave, and every
    argument array as launched. -/
theorem run_value : θ_run defs (onTc (τ := τ) (main (F := F))) ⟨m, fun _ => 0, ρ⟩ (fun r => ∀ c : Dev nD,
      r.2.mem ((c.tc : Thread nD τ).loc main_v7) = (dat1 (V3 m) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v7 (by decide))).trans (W4_main_v7 m c),
     (h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c)⟩) (run_all m ρ)

end Cert.Kernel.Hand

end
-- ==== Proof.KI.Region0Runs.lean ====
/-
  The first kernel region (the key-value product of each batch, accumulated over its eight row tiles) on whole
  staging memrefs: where the body's two conditions hold on the grid, where the output window is idle, and the
  body's run in each of its three control cases, with what it leaves in the accumulator scratch and in the output
  window's staging buffer named as functions of the blocks it read.

  A grid point is `8·b + n`: batch `b`, row tile `n`. At `n = 0` the body first stores zeros into the accumulator;
  at every point it adds the tile's keyᵀ·value to the accumulator; at `n = 7` it copies the accumulator to the
  output block. Every access is of a whole buffer, so each buffer reads back as the last value stored into it.
-/
import proofs.«142361_j103079215338_1_alg».proof.Proof.Gen.KernelIdeal.Launch
import proofs.«142361_j103079215338_1_alg».proof.Proof.Gen.KernelIdeal.Skeleton
import proofs.«142361_j103079215338_1_alg».proof.Proof.Gen.KernelIdeal.Points
import proofs.«142361_j103079215338_1_alg».proof.Proof.LibWholePiece
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.LibWholePiece

/-! ## The body's two conditions, over the grid -/

/-- "This is the batch's first row tile": the condition of the body's first conditional. -/
abbrev cond0_0 (i : grid0.Coords) : Prop := (Scalar.cmpi .ne (Scalar.extui (Scalar.cmpi .eq (BitVec.ofNat 32 (i 1).val) 0#32)) 0#32) = 1#1
/-- It holds at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- "This is the batch's last row tile": the condition of the body's second conditional. -/
abbrev cond0_1 (i : grid0.Coords) : Prop := k0_cond2 i = 1#1
/-- It holds at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Off a batch's last tile the output window is idle (the body stores nothing into it) and is not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- On a batch's last tile it is live. -/
theorem liveAt0_3 : ∀ t : Fin cfg0.N, cond0_1 (grid0.coords t) → cfg0.idle 3 (grid0.coords t) = false := by decide +kernel

/-! ## The body's accesses: each buffer is read or written whole -/

abbrev rX0 : Rect S1x512x1024 := Rect.unit (s := S1x512x1024) ![0, 0, 0] S1x512x1024.size inb_S1x512x1024_S1x512x1024_0_0_0
abbrev rW0 : Rect S1024x1024 := Rect.unit (s := S1024x1024) ![0, 0] S1024x1024.size inb_S1024x1024_S1024x1024_0_0
abbrev rO0 : Rect S1x1024x1024 := Rect.unit (s := S1x1024x1024) ![0, 0, 0] S1x1024x1024.size inb_S1x1024x1024_S1x1024x1024_0_0_0

theorem hz2 : (![0, 0] : Fin 2 → Nat) = fun _ => 0 := by
  funext a; match a with | ⟨0, _⟩ => rfl | ⟨1, _⟩ => rfl
theorem hz3 : (![0, 0, 0] : Fin 3 → Nat) = fun _ => 0 := by
  funext a; match a with | ⟨0, _⟩ => rfl | ⟨1, _⟩ => rfl | ⟨2, _⟩ => rfl

/-! ## What the body leaves -/

/-- The accumulator after a batch's first tile: the zeros the body has just stored plus the tile's keyᵀ·value. -/
def accFirst (x0 : Vec F S1x512x1024 .bf16) (x1 x2 : Vec F S1024x1024 .bf16) : Vec F S1024x1024 .f32 :=
  k0_pay2 (View.ld x0 rX0) (View.ld x1 rW0) (View.ld x2 rW0) (k0_pay1 (F := F))

/-- The accumulator after a later tile: what the tile before left plus this tile's keyᵀ·value. -/
def accNext (xs : Vec F S1024x1024 .f32) (x0 : Vec F S1x512x1024 .bf16) (x1 x2 : Vec F S1024x1024 .bf16) : Vec F S1024x1024 .f32 :=
  k0_pay2 (View.ld x0 rX0) (View.ld x1 rW0) (View.ld x2 rW0) (View.ld xs rW0)

/-- The output block on a batch's last tile: the accumulator, given a leading unit axis. -/
def outLast (a : Vec F S1024x1024 .f32) : Vec F S1x1024x1024 .f32 := k0_pay3 a

/-! ## The body's run, case by case -/

set_option maxHeartbeats 1000000 in
/-- A batch's first tile: the accumulator at anything ends at `accFirst` of the three input blocks; the output
    window's buffer is not touched. -/
theorem runFirst (c : Dev nD) (E : Set ℕ) (i : grid0.Coords)
    (arg2 : Memref sig .tc .vmem S1x512x1024 .bf16) (harg2 : arg2.IsWhole) (arg3 : Memref sig .tc .vmem S1024x1024 .bf16) (harg3 : arg3.IsWhole)
    (arg4 : Memref sig .tc .vmem S1024x1024 .bf16) (harg4 : arg4.IsWhole) (arg5 : Memref sig .tc .vmem S1x1024x1024 .f32) (harg5 : arg5.IsWhole)
    (arg6 : Memref sig .tc .vmem S1024x1024 .f32) (harg6 : arg6.IsWhole) (hc0 : cond0_0 i) (hc1 : ¬cond0_1 i)
    (x0 : Vec F S1x512x1024 .bf16) (x1 x2 : Vec F S1024x1024 .bf16) (xi : Vec F S1x1024x1024 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare xi ∗ owns (c : Thread nD τ) arg6 fullShare (accFirst x0 x1 x2)) -∗ K ⟨⟩))
      ⊢ wp frame (wpE (defs₀ (F := F)) Variants.none c none) E (cc0__kv_kernel i arg2 harg2 arg3 harg3 arg4 harg4 arg5 harg5 arg6 harg6) K := by
  simp only [cc0__kv_kernel_eq_skeleton]; unfold cc0__kv_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec (disch := first | exact hc0 | exact hc1)
  sl_step
  sl_unfold_words
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  unfold accFirst
  rw [read_writes_head_whole _ _ hz2, View.readCov_unit_zero _ hz2]
  rfl

set_option maxHeartbeats 1000000 in
/-- A middle tile: the accumulator at `xs` ends at `accNext xs` of the three input blocks; the output window's
    buffer is not touched. -/
theorem runMiddle (c : Dev nD) (E : Set ℕ) (i : grid0.Coords)
    (arg2 : Memref sig .tc .vmem S1x512x1024 .bf16) (harg2 : arg2.IsWhole) (arg3 : Memref sig .tc .vmem S1024x1024 .bf16) (harg3 : arg3.IsWhole)
    (arg4 : Memref sig .tc .vmem S1024x1024 .bf16) (harg4 : arg4.IsWhole) (arg5 : Memref sig .tc .vmem S1x1024x1024 .f32) (harg5 : arg5.IsWhole)
    (arg6 : Memref sig .tc .vmem S1024x1024 .f32) (harg6 : arg6.IsWhole) (hc0 : ¬cond0_0 i) (hc1 : ¬cond0_1 i)
    (x0 : Vec F S1x512x1024 .bf16) (x1 x2 : Vec F S1024x1024 .bf16) (xi : Vec F S1x1024x1024 .f32) (xs : Vec F S1024x1024 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare xi ∗ owns (c : Thread nD τ) arg6 fullShare (accNext xs x0 x1 x2)) -∗ K ⟨⟩))
      ⊢ wp frame (wpE (defs₀ (F := F)) Variants.none c none) E (cc0__kv_kernel i arg2 harg2 arg3 harg3 arg4 harg4 arg5 harg5 arg6 harg6) K := by
  simp only [cc0__kv_kernel_eq_skeleton]; unfold cc0__kv_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0; subst hf1; subst hf2; subst hf3; subst hf4
  sl_exec (disch := first | exact hc0 | exact hc1)
  sl_step
  sl_unfold_words
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  unfold accNext
  rw [read_writes_head_whole _ _ hz2]
  rfl

set_option maxHeartbeats 1000000 in
/-- A batch's last tile: the accumulator at `xs` ends at `accNext xs` of the three input blocks, and the output
    window's buffer, at anything, ends at that accumulator with a leading unit axis. -/
theorem runLast (c : Dev nD) (E : Set ℕ) (i : grid0.Coords)
    (arg2 : Memref sig .tc .vmem S1x512x1024 .bf16) (harg2 : arg2.IsWhole) (arg3 : Memref sig .tc .vmem S1024x1024 .bf16) (harg3 : arg3.IsWhole)
    (arg4 : Memref sig .tc .vmem S1024x1024 .bf16) (harg4 : arg4.IsWhole) (arg5 : Memref sig .tc .vmem S1x1024x1024 .f32) (harg5 : arg5.IsWhole)
    (arg6 : Memref sig .tc .vmem S1024x1024 .f32) (harg6 : arg6.IsWhole) (hc0 : ¬cond0_0 i) (hc1 : cond0_1 i)
    (x0 : Vec F S1x512x1024 .bf16) (x1 x2 : Vec F S1024x1024 .bf16) (xs : Vec F S1024x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (outLast (accNext xs x0 x1 x2)) ∗ owns (c : Thread nD τ) arg6 fullShare (accNext xs x0 x1 x2)) -∗ K ⟨⟩))
      ⊢ wp frame (wpE (defs₀ (F := F)) Variants.none c none) E (cc0__kv_kernel i arg2 harg2 arg3 harg3 arg4 harg4 arg5 harg5 arg6 harg6) K := by
  simp only [cc0__kv_kernel_eq_skeleton]; unfold cc0__kv_kernel_skel
  unfold owns
  iintro ⟨⟨%f0, %hf0, H0⟩, ⟨%f1, %hf1, H1⟩, ⟨%f2, %hf2, H2⟩, ⟨%d3, %f3, -, H3⟩, ⟨%f4, %hf4, H4⟩, Hk⟩
  subst hf0; subst hf1; subst hf2; subst hf4
  sl_exec (disch := first | exact hc0 | exact hc1)
  sl_step
  sl_unfold_words
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    unfold outLast accNext
    rw [read_writes_head_whole _ _ hz3, View.readCov_unit_zero _ hz2]
    rfl
  iexists _; isplitr
  swap; · iexact H4
  ipureintro
  unfold accNext
  rw [read_writes_head_whole _ _ hz2]
  rfl

end Cert.KernelIdeal.Hand

end
-- ==== Proof.KI.Region0.lean ====
/-
  The first kernel region on any entry contents `V` of the core's buffers: each window's block at a grid point,
  the accumulator scratch after each point as a recursion over the grid (reset at a batch's first row tile, added
  to at the others), the invariant that carries it from point to point, the region's proof data, and the body
  obligation by cases on the two conditions' closed forms.
-/
import proofs.«142361_j103079215338_1_alg».proof.Proof.KI.Region0Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the point fetches it or the
    block index has not moved since the fetch: the activations' row tile, -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- the key weights, -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- the value weights. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The staging memrefs and the scratch -/

abbrev ms0_0 (t : Fin cfg0.N) : Memref sig .tc .vmem S1x512x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024x1024 .f32 := win0_3.stage (cfg0.slots t 3)
abbrev hs0_3 (t : Fin cfg0.N) : (ms0_3 t).IsWhole := hstage0_3 ((cfg0.slots t 3).cast nbuf0_3)
/-- The accumulator: a whole scoped buffer of the kernel's own, passed beside the windows. -/
abbrev scM0 : Memref sig .tc .vmem S1024x1024 .f32 := Memref.whole cc0_scratch0

/-- The scoped buffers that are neither a staging buffer of this region nor its accumulator (the other region's
    staging buffers), each whole at some contents: they ride along untouched. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- The invariant that names nothing: the accumulator at anything, the other scoped buffers at anything, the
    generator register at some state. -/
theorem PhiA0_eq (c : Dev nD) :
    (Pipeline.ΦA spec0 c : sProp 𝕄)
      = iprop(iprop((∃ d, owns (c : Thread nD τ) scM0 fullShare d) ∗ others0 c) ∗ (∃ r, prngReg c r)) := by
  unfold Pipeline.ΦA others0; rw [scopedRest0_eq]; simp only [scM0, owns_whole]; try rfl

/-! ## The accumulator after each point -/

/-- What the accumulator holds after the body at position `n`: at a batch's first row tile the reset accumulator
    plus that tile's product, elsewhere what the point before left plus this tile's product. -/
def accAt0 (c : Dev nD) : (n : ℕ) → n < cfg0.N → Vec F S1024x1024 .f32
  | 0, hn => accFirst (iblk0 V c 0 ⟨0, hn⟩) (iblk0 V c 1 ⟨0, hn⟩) (iblk0 V c 2 ⟨0, hn⟩)
  | n + 1, hn =>
    if (n + 1) % 8 = 0 then
      accFirst (iblk0 V c 0 ⟨n + 1, hn⟩) (iblk0 V c 1 ⟨n + 1, hn⟩) (iblk0 V c 2 ⟨n + 1, hn⟩)
    else
      accNext (accAt0 c n (Nat.lt_of_succ_lt hn)) (iblk0 V c 0 ⟨n + 1, hn⟩) (iblk0 V c 1 ⟨n + 1, hn⟩) (iblk0 V c 2 ⟨n + 1, hn⟩)

/-- At a batch's first row tile. -/
theorem accAt0_first (c : Dev nD) (t : Fin cfg0.N) (h0 : t.val % 8 = 0) :
    accAt0 V c t.val t.isLt = accFirst (iblk0 V c 0 t) (iblk0 V c 1 t) (iblk0 V c 2 t) := by
  obtain ⟨n, hn⟩ := t
  cases n with
  | zero => rfl
  | succ n => exact (if_pos h0)

/-- At a later row tile. -/
theorem accAt0_next (c : Dev nD) (t : Fin cfg0.N) (h0 : ¬t.val % 8 = 0) :
    accAt0 V c t.val t.isLt = accNext (accAt0 V c (t.val - 1) (Nat.lt_of_le_of_lt (Nat.sub_le _ _) t.isLt)) (iblk0 V c 0 t) (iblk0 V c 1 t) (iblk0 V c 2 t) := by
  obtain ⟨n, hn⟩ := t
  cases n with
  | zero => exact absurd (Nat.zero_mod _) h0
  | succ n => exact (if_neg h0)

/-- The region invariant before position `n`: before the first point nothing is named; afterwards the accumulator
    holds what the point before left. -/
def PhiS0 (c : Dev nD) : (n : ℕ) → n ≤ cfg0.N → sProp 𝕄
  | 0, _ => Pipeline.ΦA spec0 c
  | n + 1, hn => iprop(iprop(owns (c : Thread nD τ) scM0 fullShare (accAt0 V c n hn) ∗ others0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare (accAt0 V c n hn) ∗ others0 c) ∗ (∃ r, prngReg c r)) := rfl

theorem PhiS0_pos (c : Dev nD) (n : ℕ) (h : n ≤ cfg0.N) (hz : n ≠ 0) :
    PhiS0 V c n h = iprop(iprop(owns (c : Thread nD τ) scM0 fullShare (accAt0 V c (n - 1) (by omega)) ∗ others0 c) ∗ (∃ r, prngReg c r)) := by
  cases n with
  | zero => exact absurd rfl hz
  | succ n => rfl

/-! ## The region's proof data -/

/-- The proof data of the region on core `c`: the arrays as the region finds them; after the body at point `t` each
    input's buffer at its block and the output's at the accumulator with a leading unit axis (consulted only at a
    batch's last row tile: elsewhere the window is idle and not written back); the invariant carries the
    accumulator; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outLast (accAt0 V c t.val t.isLt)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = outLast (accAt0 V c t.val t.isLt) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

theorem leaves0_0 (c : Dev nD) (t : Fin cfg0.N) :
    (dat0 V c).leavesExact 0 t = owns (c : Thread nD τ) (ms0_0 t) fullShare (iblk0 V c 0 t) := by
  unfold Dat.leavesExact; rw [liveAt0_0 t, after0_0]
theorem leaves0_1 (c : Dev nD) (t : Fin cfg0.N) :
    (dat0 V c).leavesExact 1 t = owns (c : Thread nD τ) (ms0_1 t) fullShare (iblk0 V c 1 t) := by
  unfold Dat.leavesExact; rw [liveAt0_1 t, after0_1]
theorem leaves0_2 (c : Dev nD) (t : Fin cfg0.N) :
    (dat0 V c).leavesExact 2 t = owns (c : Thread nD τ) (ms0_2 t) fullShare (iblk0 V c 2 t) := by
  unfold Dat.leavesExact; rw [liveAt0_2 t, after0_2]

set_option maxHeartbeats 4800000 in
/-- The body at any point. The inputs' memrefs hold their blocks; the closed forms say which case the point is in;
    the invariant hands the body the accumulator at what the point before left (at anything before the first point)
    and takes it back at this point's contents; off a batch's last tile the output window's buffer is handed back as
    found, on it the buffer ends at the accumulator; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2]
  have hN : t.val < 32 := lt_of_lt_of_eq t.isLt (show cfg0.N = 32 from N_0)
  by_cases h0 : t.val % 8 = 0
  · have h1 : ¬t.val % 8 = 7 := by omega
    have hc0 : cond0_0 (grid0.coords t) := (hcond0_0 t).mpr h0
    have hc1 : ¬cond0_1 (grid0.coords t) := fun h => h1 ((hcond0_1 t).mp h)
    rw [Dat.leavesExact_idle (dat0 V c) 3 t (idleAt0_3 t hc1) (noFlush0_3 t hc1)]
    rw [accAt0_first V c t h0]
    by_cases hz : t.val = 0
    · rw [PhiS0_castSucc V c t, PhiS0_zero V c _ _ hz, PhiA0_eq]
      iintro ⟨⟨⟨HS, Hoth⟩, Hg⟩, Ho, ⟨%d0, H0⟩, ⟨%d1, H1⟩, ⟨%d2, H2⟩, ⟨%d3, H3⟩⟩
      iapply (runFirst c Set.univ (grid0.coords t) _ _ _ _ _ _ _ _ _ _ hc0 hc1 (iblk0 V c 0 t) (iblk0 V c 1 t) (iblk0 V c 2 t) _ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      iexists _; iexact H3
    · rw [PhiS0_castSucc V c t, PhiS0_pos V c _ _ hz]
      iintro ⟨⟨⟨HS, Hoth⟩, Hg⟩, Ho, ⟨%d0, H0⟩, ⟨%d1, H1⟩, ⟨%d2, H2⟩, ⟨%d3, H3⟩⟩
      iapply (runFirst c Set.univ (grid0.coords t) _ _ _ _ _ _ _ _ _ _ hc0 hc1 (iblk0 V c 0 t) (iblk0 V c 1 t) (iblk0 V c 2 t) _ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      iexists _; iexact H3
  · have hz : t.val ≠ 0 := fun e => h0 (by rw [e])
    have hc0 : ¬cond0_0 (grid0.coords t) := fun h => h0 ((hcond0_0 t).mp h)
    rw [accAt0_next V c t h0]
    rw [PhiS0_castSucc V c t, PhiS0_pos V c _ _ hz]
    by_cases h1 : t.val % 8 = 7
    · have hc1 : cond0_1 (grid0.coords t) := (hcond0_1 t).mpr h1
      rw [show (dat0 V c).leavesExact 3 t = owns (c : Thread nD τ) (ms0_3 t) fullShare ((dat0 V c).after 3 t) from by
        unfold Dat.leavesExact; rw [liveAt0_3 t hc1], after0_3, accAt0_next V c t h0]
      iintro ⟨⟨⟨HS, Hoth⟩, Hg⟩, Ho, ⟨%d0, H0⟩, ⟨%d1, H1⟩, ⟨%d2, H2⟩, ⟨%d3, H3⟩⟩
      iapply (runLast c Set.univ (grid0.coords t) _ _ _ _ _ _ _ _ _ _ hc0 hc1 (iblk0 V c 0 t) (iblk0 V c 1 t) (iblk0 V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      iexact H3
    · have hc1 : ¬cond0_1 (grid0.coords t) := fun h => h1 ((hcond0_1 t).mp h)
      rw [Dat.leavesExact_idle (dat0 V c) 3 t (idleAt0_3 t hc1) (noFlush0_3 t hc1)]
      iintro ⟨⟨⟨HS, Hoth⟩, Hg⟩, Ho, ⟨%d0, H0⟩, ⟨%d1, H1⟩, ⟨%d2, H2⟩, ⟨%d3, H3⟩⟩
      iapply (runMiddle c Set.univ (grid0.coords t) _ _ _ _ _ _ _ _ _ _ hc0 hc1 (iblk0 V c 0 t) (iblk0 V c 1 t) (iblk0 V c 2 t) _ _ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the unnamed one back: the accumulator's contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS, Hoth⟩, Hg⟩
  isplitl [HS Hoth]
  · isplitl [HS]
    · iexists _; iexact HS
    iexact Hoth
  iexact Hg

/-- The same after the last point. -/
theorem hout0 (c : Dev nD) : (dat0 V c).Φ (Fin.last cfg0.N) ⊢ Pipeline.ΦA spec0 c :=
  Phi_out0 V c _ (by rw [Fin.val_last]; have : cfg0.N = 32 := N_0; omega)

end Cert.KernelIdeal.Hand

end
-- ==== Proof.KI.Region1.lean ====
/-
  The second kernel region (the gated query against the key-value product) on any entry contents `V` of the
  core's buffers: each window's block at a grid point, what the body's one store leaves in the output window's
  staging buffer as a function of the four input blocks, the body's triple, and the region's proof data with
  its body obligation. The body keeps nothing between grid points: every point reads its four input blocks and
  stores the whole output block.
-/
import proofs.«142361_j103079215338_1_alg».proof.Proof.Gen.KernelIdeal.Launch
import proofs.«142361_j103079215338_1_alg».proof.Proof.Gen.KernelIdeal.Skeleton
import proofs.«142361_j103079215338_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether the point fetches it or the
    block index has not moved since the fetch: the activations' row tile, -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- the left query weights, -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- the right query weights, -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- the batch's key-value product. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer is read or written whole -/

abbrev rX1 : Rect S1x512x1024 := Rect.unit (s := S1x512x1024) ![0, 0, 0] S1x512x1024.size inb_S1x512x1024_S1x512x1024_0_0_0
abbrev rW1 : Rect S1024x1024 := Rect.unit (s := S1024x1024) ![0, 0] S1024x1024.size inb_S1024x1024_S1024x1024_0_0
abbrev rKV1 : Rect S1x1024x1024 := Rect.unit (s := S1x1024x1024) ![0, 0, 0] S1x1024x1024.size inb_S1x1024x1024_S1x1024x1024_0_0_0

/-! ## What the body leaves in the output window's buffer -/

/-- The output window's staging buffer after the body, from the four input blocks: its one store, covering the
    whole block, of the gated query times the key-value product. -/
def out1_4 (x0 : Vec F S1x512x1024 .bf16) (x1 x2 : Vec F S1024x1024 .bf16) (x3 : Vec F S1x1024x1024 .bf16) : Vec F S1x512x1024 .f32 :=
  View.canon [⟨rX1, k1_pay1 (View.ld x0 rX1) (View.ld x1 rW1) (View.ld x2 rW1) (View.ld x3 rKV1)⟩]

/-- The one store tiles the buffer, so it covers it. -/
theorem cover1_4 (p0 : Vec F S1x512x1024 .f32) (y : S1x512x1024.Idx) :
    ∃ pc ∈ ([⟨rX1, p0⟩] : List (View.Piece (Elt F) S1x512x1024 .f32)), y ∈ pc.1.set :=
  View.cover_of_tiled [⟨rX1, p0⟩] S1x512x1024.size (by rfl) y

/-! ## The body's triple -/

set_option maxHeartbeats 1000000 in
/-- The body on whole staging memrefs, the inputs' at contents `x0 … x3` and the output's at anything, runs to the
    continuation holding the inputs' as they were and the output's at `out1_4` of them. -/
theorem sound_kernel1 (c : Dev nD) (E : Set ℕ) (i : grid1.Coords)
    (arg2 : Memref sig .tc .vmem S1x512x1024 .bf16) (harg2 : arg2.IsWhole) (arg3 : Memref sig .tc .vmem S1024x1024 .bf16) (harg3 : arg3.IsWhole)
    (arg4 : Memref sig .tc .vmem S1024x1024 .bf16) (harg4 : arg4.IsWhole) (arg5 : Memref sig .tc .vmem S1x1024x1024 .bf16) (harg5 : arg5.IsWhole)
    (arg6 : Memref sig .tc .vmem S1x512x1024 .f32) (harg6 : arg6.IsWhole)
    (x0 : Vec F S1x512x1024 .bf16) (x1 x2 : Vec F S1024x1024 .bf16) (x3 : Vec F S1x1024x1024 .bf16) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out1_4 x0 x1 x2 x3)) -∗ K ⟨⟩))
      ⊢ wp frame (wpE (defs₀ (F := F)) Variants.none c none) E (cc1__out_kernel i arg2 harg2 arg3 harg3 arg4 harg4 arg5 harg5 arg6 harg6) K := by
  simp only [cc1__out_kernel_eq_skeleton]; unfold cc1__out_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The region's proof data -/

/-- The proof data of the region on core `c`: the arrays as the region finds them; after the body at point `t` each
    input's buffer at its block and the output's at `out1_4` of the four input blocks; the invariant says only that
    the other scoped buffers and the generator register are left alone; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so the triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Run.lean ====
/-
  The whole program's run: the contents of the core's buffers at each boundary between @main's four items (five
  format changes on the host, the first kernel region, one format change, the second kernel region) as a fold from
  the launch memory; each region as a segment entered from the contents before it and left at the contents after
  it; and the launch over the four segments, whose post reads every unscoped buffer off the last contents. The frame
  (every argument array ends as launched) and the result array's contents are both read from that one run.
-/
import proofs.«142361_j103079215338_1_alg».proof.Proof.KI.Region0
import proofs.«142361_j103079215338_1_alg».proof.Proof.KI.Region1
import proofs.«142361_j103079215338_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => m ((c : Dev nD), b)
/-- After the five format changes (the first region's entry). -/
abbrev W1 : Dev nD → Valuation τ sig (Elt F) := fun c => StableHlo.after hostOps0 (W0 m c)
/-- The same read at the TensorCore's references (what the first region's proof data take). -/
abbrev V1 : (c : Dev nD) → (b : Ref sig .tc) → Buf (Elt F) ((c : Thread nD τ).loc b) := fun c b => W1 m c b
/-- At the first region's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the one format change between the regions (the second region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the second region's exit: its arrays at what the pipeline leaves, every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ### The arguments end as launched: no host operation writes one, and neither region has one among its arrays -/

/-- A buffer that neither host stretch writes and that is no array of either region ends as launched. -/
theorem W4_kept (c : Dev nD) (r : Ref sig .tc) (h0 : r ∉ hostOps0_W) (h1 : r ∉ hostOps1_W)
    (ha0 : ∀ w, Pipeline.arrRef spec0 w ≠ r) (ha1 : ∀ w, Pipeline.arrRef spec1 w ≠ r) :
    W4 m c (Proc.devRef .tc r) = m ((c : Thread nD τ).loc r) :=
  calc W4 m c (Proc.devRef .tc r)
    _ = W3 m c (Proc.devRef .tc r) := W4_of_ne m c r ha1
    _ = W2 m c (Proc.devRef .tc r) := StableHlo.after_of_writes_sub hostOps1 _ hostOps1_writes h1
    _ = W1 m c (Proc.devRef .tc r) := W2_of_ne m c r ha0
    _ = W0 m c (Proc.devRef .tc r) := StableHlo.after_of_writes_sub hostOps0 _ hostOps0_writes h0
    _ = m ((c : Thread nD τ).loc r) := rfl

theorem W4_main_arg0 (c : Dev nD) : W4 m c (Proc.devRef .tc main_arg0) = m ((c : Thread nD τ).loc main_arg0) :=
  W4_kept m c main_arg0 (by decide) (by decide) (by decide) (by decide)
theorem W4_main_arg1 (c : Dev nD) : W4 m c (Proc.devRef .tc main_arg1) = m ((c : Thread nD τ).loc main_arg1) :=
  W4_kept m c main_arg1 (by decide) (by decide) (by decide) (by decide)
theorem W4_main_arg2 (c : Dev nD) : W4 m c (Proc.devRef .tc main_arg2) = m ((c : Thread nD τ).loc main_arg2) :=
  W4_kept m c main_arg2 (by decide) (by decide) (by decide) (by decide)
theorem W4_main_arg3 (c : Dev nD) : W4 m c (Proc.devRef .tc main_arg3) = m ((c : Thread nD τ).loc main_arg3) :=
  W4_kept m c main_arg3 (by decide) (by decide) (by decide) (by decide)
theorem W4_main_arg4 (c : Dev nD) : W4 m c (Proc.devRef .tc main_arg4) = m ((c : Thread nD τ).loc main_arg4) :=
  W4_kept m c main_arg4 (by decide) (by decide) (by decide) (by decide)

/-- The result array ends at what the second region's write-backs leave. -/
theorem W4_main_v7 (c : Dev nD) : W4 m c (Proc.devRef .tc main_v7) = (dat1 (V3 m) c).arrAt 4 cfg1.N :=
  W4_arr m c 4

/-! ## The proof data family and the thread state -/

/-- The prefetched tables' admissible contents: no pipeline has a table. -/
abbrev adm' : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm' p) c
  | ⟨0, _⟩ => fun c => dat0 (V1 m) c
  | ⟨1, _⟩ => fun c => dat1 (V3 m) c
abbrev 𝒱₀ : Variants := Variants.none
/-- No core owes another anything: no level is assigned. -/
abbrev L' : GSem nD τ sig → Finset Unit := fun _ => ∅
abbrev lv' : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L' lv' :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register at some state. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- The first region over the thread state: entered from every unscoped buffer at `W1`, left at `W2`. Its arrays are split
    out of the unscoped buffers and put back at the exit contents; the generator register and the scoped buffers go into the
    invariant, which names the accumulator from the first point on and forgets it at the exit; nothing owed; no semaphore of
    the kernel's own. -/
def reg0 : Pipeline.RegionSeg (pcfgs (F := F)) adm' (pdats m) () defs₀ 𝒱₀ L' lv' 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L' lv' 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm' (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop(Pipeline.scopedRest (Ix := Unit) (Name := ℕ) (U := UR sig nD τ) (Lvl := ℕ) (Val := Elt F) spec0 c ∗ ∃ r, prngReg c r) : sProp 𝕄)
        ⊢ (pdats m 0 c).Φ 0 := hin0 (V1 m) c
    iintro ⟨Hp, -, Hr⟩
    iapply h
    isplitl [Hr]; · iexact Hr
    iexact Hp
  hout c := by
    rw [Pipeline.ownSems0_none]
    have h : (pdats m 0 c).Φ (Fin.last _)
        ⊢ (iprop(Pipeline.scopedRest (Ix := Unit) (Name := ℕ) (U := UR sig nD τ) (Lvl := ℕ) (Val := Elt F) spec0 c ∗ ∃ r, prngReg c r) : sProp 𝕄) :=
      hout0 (V1 m) c
    iintro Hphi
    ihave H := h $$ Hphi
    icases H with ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at `W3`, left at `W4`. Its arrays are split
    out of the unscoped buffers and put back at the exit contents; the generator register and the scoped buffers pass through
    the invariant untouched; nothing owed; no semaphore of the kernel's own. -/
def reg1 : Pipeline.RegionSeg (pcfgs (F := F)) adm' (pdats m) () defs₀ 𝒱₀ L' lv' 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L' lv' 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm' (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's four segments in order. -/
abbrev segs' : List (Pipeline.Seg (pcfgs (F := F)) adm' (pdats m) () defs₀ 𝒱₀ L' lv') :=
  [ .host (hseg hostOps0 hostOps0_sub hostOps0_fresh (W0 m)),
    .region (reg0 m),
    .host (hseg hostOps1 hostOps1_sub hostOps1_fresh (W2 m)),
    .region (reg1 m) ]
/-- @main is the run of the segments. -/
theorem main_run (c : Dev nD) : main (F := F) c = Pipeline.Seg.run (segs' m) := (main_chain c).trans (by chain_rfl)

set_option backward.isDefEq.respectTransparency.types false in
/-- THE RUN. At the compiled mesh, from any memory with zero counters, every weakly fair execution of @main terminates,
    nothing faulting, and in every final state each unscoped buffer holds the last contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm' (pdats m) () cellOf_inj emb₁ defs₀ 𝒱₀ L' lv' m ρ main (segs' m)
    (fun c Q => by rw [main_run m c])
    (by simp only [segs', Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L' lv' fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c)⟩) (run_all m ρ)

/-- THE RUN WITH THE RESULT NAMED: the result array ends at what the second region's write-backs leave, and every
    argument array as launched. -/
theorem run_value : θ_run defs (onTc (τ := τ) (main (F := F))) ⟨m, fun _ => 0, ρ⟩ (fun r => ∀ c : Dev nD,
      r.2.mem ((c.tc : Thread nD τ).loc main_v7) = (dat1 (V3 m) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v7 (by decide))).trans (W4_main_v7 m c),
     (h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c)⟩) (run_all m ρ)

end Cert.KernelIdeal.Hand

end
-- ==== Proof.Val.Host.lean ====
/-
  The host's format changes at the ideal instance, where a change of float format is the identity: after the five
  changes before the first region each bf16 copy holds its argument, and at the second region's entry the activations
  and the two query weight matrices are still those copies while the bf16 key-value array holds what the first
  region's write-backs left.
-/
import proofs.«142361_j103079215338_1_alg».proof.Proof.KI.Run
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL.Sem

open Idealize.ShloMosaic.StableHlo

variable (m : (ℓ : Loc nD τ sig) → Buf (Elt Ideal) ℓ)

/-! ## The first region's entry contents -/

theorem V1_v0 (c : Dev nD) : (Hand.V1 (F := Ideal) m c main_v0 : S4x4096x1024.Idx → EReal) = m ((c : Thread nD τ).loc main_arg0) := by
  show StableHlo.after hostOps0 (fun b => m (c, b)) (Proc.devRef .tc main_v0) = _
  after_results
  rfl
theorem V1_v1 (c : Dev nD) : (Hand.V1 (F := Ideal) m c main_v1 : S1024x1024.Idx → EReal) = m ((c : Thread nD τ).loc main_arg3) := by
  show StableHlo.after hostOps0 (fun b => m (c, b)) (Proc.devRef .tc main_v1) = _
  after_results
  rfl
theorem V1_v2 (c : Dev nD) : (Hand.V1 (F := Ideal) m c main_v2 : S1024x1024.Idx → EReal) = m ((c : Thread nD τ).loc main_arg4) := by
  show StableHlo.after hostOps0 (fun b => m (c, b)) (Proc.devRef .tc main_v2) = _
  after_results
  rfl
theorem V1_v3 (c : Dev nD) : (Hand.V1 (F := Ideal) m c main_v3 : S1024x1024.Idx → EReal) = m ((c : Thread nD τ).loc main_arg1) := by
  show StableHlo.after hostOps0 (fun b => m (c, b)) (Proc.devRef .tc main_v3) = _
  after_results
  rfl
theorem V1_v4 (c : Dev nD) : (Hand.V1 (F := Ideal) m c main_v4 : S1024x1024.Idx → EReal) = m ((c : Thread nD τ).loc main_arg2) := by
  show StableHlo.after hostOps0 (fun b => m (c, b)) (Proc.devRef .tc main_v4) = _
  after_results
  rfl

/-! ## The second region's entry contents -/

/-- The activations' copy is an input array of the first region, never written, and the later format change does not
    write it. -/
theorem V3_v0 (c : Dev nD) : Hand.V3 (F := Ideal) m c main_v0 = Hand.V1 (F := Ideal) m c main_v0 :=
  (StableHlo.after_of_writes_sub hostOps1 _ hostOps1_writes (by decide : main_v0 ∉ hostOps1_W)).trans
    ((W2_arr m c 0).trans (((dat0 (Hand.V1 m) c).arrAt_in 0 rfl _).trans (A_eq0 (Hand.V1 m) c 0)))
/-- The query weights' copies are no array of the first region. -/
theorem V3_v3 (c : Dev nD) : Hand.V3 (F := Ideal) m c main_v3 = Hand.V1 (F := Ideal) m c main_v3 :=
  (StableHlo.after_of_writes_sub hostOps1 _ hostOps1_writes (by decide : main_v3 ∉ hostOps1_W)).trans
    (W2_of_ne m c main_v3 (by decide))
theorem V3_v4 (c : Dev nD) : Hand.V3 (F := Ideal) m c main_v4 = Hand.V1 (F := Ideal) m c main_v4 :=
  (StableHlo.after_of_writes_sub hostOps1 _ hostOps1_writes (by decide : main_v4 ∉ hostOps1_W)).trans
    (W2_of_ne m c main_v4 (by decide))
/-- The bf16 key-value array is the first region's output array as its write-backs left it. -/
theorem V3_v6 (c : Dev nD) :
    (Hand.V3 (F := Ideal) m c main_v6 : S4x1024x1024.Idx → EReal) = (dat0 (F := Ideal) (Hand.V1 m) c).arrAt 3 cfg0.N := by
  show StableHlo.after hostOps1 (W2 m c) (Proc.devRef .tc main_v6) = _
  after_results
  exact W2_arr m c 3

end Cert.KernelIdeal.Val

end
-- ==== Proof.Val.Sums.lean ====
/-
  Two facts about finite sums in a commutative monoid, used to compare a sum over 4096 rows with the same sum taken
  tile by tile: the 4096 rows are 8 tiles of 512, and an accumulator that starts at the first tile's term and adds
  one tile's term per step holds the partial sum.
-/
import Mathlib.Algebra.BigOperators.Fin
import Mathlib.Algebra.BigOperators.Intervals

namespace Cert.Sums

variable {M : Type*} [AddCommMonoid M]

/-- A sum over 4096 rows is the sum over 8 tiles of the sums over each tile's 512 rows. -/
theorem sum_tiles (f : Fin 4096 → M) :
    ∑ n : Fin 4096, f n = ∑ j : Fin 8, ∑ r : Fin 512, f ⟨512 * j.val + r.val, by omega⟩ := by
  calc ∑ n : Fin 4096, f n
      = ∑ p : Fin 8 × Fin 512, f (finProdFinEquiv p) :=
        (Equiv.sum_comp (finProdFinEquiv (m := 8) (n := 512)) f).symm
    _ = ∑ j : Fin 8, ∑ r : Fin 512, f (finProdFinEquiv (j, r)) := Fintype.sum_prod_type _
    _ = ∑ j : Fin 8, ∑ r : Fin 512, f ⟨512 * j.val + r.val, by omega⟩ := by
        refine Finset.sum_congr rfl fun j _ => Finset.sum_congr rfl fun r _ => ?_
        refine congrArg f (Fin.ext ?_)
        show r.val + 512 * j.val = 512 * j.val + r.val
        omega

/-- An accumulator that starts at term 0 and adds term `n + 1` at step `n + 1` holds the partial sum. -/
theorem fold_tiles (T acc : ℕ → M) (h0 : acc 0 = T 0) (hs : ∀ n, acc (n + 1) = acc n + T (n + 1)) (n : ℕ) :
    acc n = ∑ j ∈ Finset.range (n + 1), T j := by
  induction n with
  | zero => rw [h0, Finset.sum_range_one]
  | succ n ih => rw [hs, ih, Finset.sum_range_succ _ (n + 1)]

/-- The partial sum over the first 8 naturals is the sum over `Fin 8`. -/
theorem sum_range_eight (T : ℕ → M) : ∑ j ∈ Finset.range 8, T j = ∑ j : Fin 8, T j.val :=
  (Fin.sum_univ_eq_sum_range T 8).symm

end Cert.Sums
-- ==== Proof.Val.Payloads.lean ====
/-
  The bodies' stored values read at an index, at the ideal instance, where a float is an extended real, a change of
  float format is the identity and a matrix product into a zero accumulator is the plain sum of products: one row
  tile's contribution to keyᵀ·value, the accumulator's two forms, the output block of the first region, and the
  output block of the second.
-/
import proofs.«142361_j103079215338_1_alg».proof.Proof.KI.Region0Runs
import proofs.«142361_j103079215338_1_alg».proof.Proof.KI.Region1
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL.Sem

/-- Row `r` of a 512-row tile of the activations against column `e` of a weight matrix. -/
def rowDot (x0 : FVec Ideal S1x512x1024 .bf16) (w : FVec Ideal S1024x1024 .bf16) (r : Fin 512) (e : Fin 1024) : EReal :=
  ∑ k : Fin 1024, x0 (ix3 0 r k) * w (ix2 k e)

/-- One tile's contribution to the key-value product at `(d, e)`: over the tile's rows, key at `d` times value at `e`. -/
def tileKV (x0 : FVec Ideal S1x512x1024 .bf16) (wk wv : FVec Ideal S1024x1024 .bf16) (d e : Fin 1024) : EReal :=
  ∑ r : Fin 512, rowDot x0 wk r d * rowDot x0 wv r e

/-! ## The two matrix products' operand indices, axis by axis -/

/-- Rows times columns: the left operand's row is the output's row. -/
theorem lhs_rowsCols_0 (i : S512x1024.Idx) (q : Cert.KernelIdeal.dot_S512x1024_S1024x1024_S512x1024_1_0_0_1_n_n.contr.Idx) :
    (Cert.KernelIdeal.dot_S512x1024_S1024x1024_S512x1024_1_0_0_1_n_n.lhsIdx i q 0).val = (i 0).val := by
  unfold DotDims.lhsIdx
  rw [dif_neg (show ¬(0 : Fin S512x1024.rank) ∈ Cert.KernelIdeal.dot_S512x1024_S1024x1024_S512x1024_1_0_0_1_n_n.lhsBatch by decide), dif_pos (show (0 : Fin S512x1024.rank) ∈ Cert.KernelIdeal.dot_S512x1024_S1024x1024_S512x1024_1_0_0_1_n_n.lhsNonContracting by decide)]
  rfl
/-- Its column is the contraction index. -/
theorem lhs_rowsCols_1 (i : S512x1024.Idx) (q : Cert.KernelIdeal.dot_S512x1024_S1024x1024_S512x1024_1_0_0_1_n_n.contr.Idx) :
    (Cert.KernelIdeal.dot_S512x1024_S1024x1024_S512x1024_1_0_0_1_n_n.lhsIdx i q 1).val = (q ⟨0, by decide⟩).val :=
  Cert.KernelIdeal.dot_S512x1024_S1024x1024_S512x1024_1_0_0_1_n_n.lhsIdx_val_of_single rfl i q
/-- The right operand's row is the contraction index. -/
theorem rhs_rowsCols_0 (i : S512x1024.Idx) (q : Cert.KernelIdeal.dot_S512x1024_S1024x1024_S512x1024_1_0_0_1_n_n.contr.Idx) :
    (Cert.KernelIdeal.dot_S512x1024_S1024x1024_S512x1024_1_0_0_1_n_n.rhsIdx i q 0).val = (q ⟨0, by decide⟩).val :=
  Cert.KernelIdeal.dot_S512x1024_S1024x1024_S512x1024_1_0_0_1_n_n.rhsIdx_val_of_single rfl i q
/-- Its column is the output's column. -/
theorem rhs_rowsCols_1 (i : S512x1024.Idx) (q : Cert.KernelIdeal.dot_S512x1024_S1024x1024_S512x1024_1_0_0_1_n_n.contr.Idx) :
    (Cert.KernelIdeal.dot_S512x1024_S1024x1024_S512x1024_1_0_0_1_n_n.rhsIdx i q 1).val = (i 1).val := by
  unfold DotDims.rhsIdx
  rw [dif_neg (show ¬(1 : Fin S1024x1024.rank) ∈ Cert.KernelIdeal.dot_S512x1024_S1024x1024_S512x1024_1_0_0_1_n_n.rhsBatch by decide), dif_pos (show (1 : Fin S1024x1024.rank) ∈ Cert.KernelIdeal.dot_S512x1024_S1024x1024_S512x1024_1_0_0_1_n_n.rhsNonContracting by decide)]
  rfl

/-- The product contracting both operands' rows: the left operand's row is the contraction index. -/
theorem lhs_overRows_0 (i : S1024x1024.Idx) (q : Cert.KernelIdeal.dot_S512x1024_S512x1024_S1024x1024_0_0_1_1_n_n.contr.Idx) :
    (Cert.KernelIdeal.dot_S512x1024_S512x1024_S1024x1024_0_0_1_1_n_n.lhsIdx i q 0).val = (q ⟨0, by decide⟩).val :=
  Cert.KernelIdeal.dot_S512x1024_S512x1024_S1024x1024_0_0_1_1_n_n.lhsIdx_val_of_single rfl i q
/-- Its column is the output's row. -/
theorem lhs_overRows_1 (i : S1024x1024.Idx) (q : Cert.KernelIdeal.dot_S512x1024_S512x1024_S1024x1024_0_0_1_1_n_n.contr.Idx) :
    (Cert.KernelIdeal.dot_S512x1024_S512x1024_S1024x1024_0_0_1_1_n_n.lhsIdx i q 1).val = (i 0).val := by
  unfold DotDims.lhsIdx
  rw [dif_neg (show ¬(1 : Fin S512x1024.rank) ∈ Cert.KernelIdeal.dot_S512x1024_S512x1024_S1024x1024_0_0_1_1_n_n.lhsBatch by decide), dif_pos (show (1 : Fin S512x1024.rank) ∈ Cert.KernelIdeal.dot_S512x1024_S512x1024_S1024x1024_0_0_1_1_n_n.lhsNonContracting by decide)]
  rfl
/-- The right operand's row is the contraction index. -/
theorem rhs_overRows_0 (i : S1024x1024.Idx) (q : Cert.KernelIdeal.dot_S512x1024_S512x1024_S1024x1024_0_0_1_1_n_n.contr.Idx) :
    (Cert.KernelIdeal.dot_S512x1024_S512x1024_S1024x1024_0_0_1_1_n_n.rhsIdx i q 0).val = (q ⟨0, by decide⟩).val :=
  Cert.KernelIdeal.dot_S512x1024_S512x1024_S1024x1024_0_0_1_1_n_n.rhsIdx_val_of_single rfl i q
/-- Its column is the output's column. -/
theorem rhs_overRows_1 (i : S1024x1024.Idx) (q : Cert.KernelIdeal.dot_S512x1024_S512x1024_S1024x1024_0_0_1_1_n_n.contr.Idx) :
    (Cert.KernelIdeal.dot_S512x1024_S512x1024_S1024x1024_0_0_1_1_n_n.rhsIdx i q 1).val = (i 1).val := by
  unfold DotDims.rhsIdx
  rw [dif_neg (show ¬(1 : Fin S512x1024.rank) ∈ Cert.KernelIdeal.dot_S512x1024_S512x1024_S1024x1024_0_0_1_1_n_n.rhsBatch by decide), dif_pos (show (1 : Fin S512x1024.rank) ∈ Cert.KernelIdeal.dot_S512x1024_S512x1024_S1024x1024_0_0_1_1_n_n.rhsNonContracting by decide)]
  rfl

/-! ## The two matrix products into a zero accumulator, read at an index -/

/-- Rows times columns into zero: the sum over the shared axis. -/
theorem matmulRowsCols_apply (a : FVec Ideal S512x1024 .bf16) (b : FVec Ideal S1024x1024 .bf16) (r : Fin 512) (e : Fin 1024) :
    matmul (F := Ideal) Cert.KernelIdeal.dot_S512x1024_S1024x1024_S512x1024_1_0_0_1_n_n none a b (constant (F := Ideal) S512x1024 .f32 0x00000000#32) (ix2 r e)
      = ∑ k : Fin 1024, a (ix2 r k) * b (ix2 k e) := by
  refine (Ideal.matmul_constant_zero_apply Cert.KernelIdeal.dot_S512x1024_S1024x1024_S512x1024_1_0_0_1_n_n none a b (ix2 r e)).trans ?_
  rw [← Equiv.sum_comp (ValueIdx.contrEquiv1 Cert.KernelIdeal.dot_S512x1024_S1024x1024_S512x1024_1_0_0_1_n_n 1024 rfl rfl).symm]
  refine Finset.sum_congr rfl fun k _ => ?_
  have hk := ValueIdx.contrEquiv1_symm_val Cert.KernelIdeal.dot_S512x1024_S1024x1024_S512x1024_1_0_0_1_n_n 1024 rfl rfl k
  have el : Cert.KernelIdeal.dot_S512x1024_S1024x1024_S512x1024_1_0_0_1_n_n.lhsIdx (ix2 r e) ((ValueIdx.contrEquiv1 Cert.KernelIdeal.dot_S512x1024_S1024x1024_S512x1024_1_0_0_1_n_n 1024 rfl rfl).symm k) = ix2 r k := funext fun x => Fin.ext (by
    match x with
    | ⟨0, _⟩ => exact lhs_rowsCols_0 _ _
    | ⟨1, _⟩ => exact (lhs_rowsCols_1 _ _).trans hk)
  have er : Cert.KernelIdeal.dot_S512x1024_S1024x1024_S512x1024_1_0_0_1_n_n.rhsIdx (ix2 r e) ((ValueIdx.contrEquiv1 Cert.KernelIdeal.dot_S512x1024_S1024x1024_S512x1024_1_0_0_1_n_n 1024 rfl rfl).symm k) = ix2 k e := funext fun x => Fin.ext (by
    match x with
    | ⟨0, _⟩ => exact (rhs_rowsCols_0 _ _).trans hk
    | ⟨1, _⟩ => exact rhs_rowsCols_1 _ _)
  rw [el, er]

/-- The product contracting both operands' rows, into zero: the sum over the rows. -/
theorem matmulOverRows_apply (a b : FVec Ideal S512x1024 .bf16) (d e : Fin 1024) :
    matmul (F := Ideal) Cert.KernelIdeal.dot_S512x1024_S512x1024_S1024x1024_0_0_1_1_n_n none a b (constant (F := Ideal) S1024x1024 .f32 0x00000000#32) (ix2 d e)
      = ∑ r : Fin 512, a (ix2 r d) * b (ix2 r e) := by
  refine (Ideal.matmul_constant_zero_apply Cert.KernelIdeal.dot_S512x1024_S512x1024_S1024x1024_0_0_1_1_n_n none a b (ix2 d e)).trans ?_
  rw [← Equiv.sum_comp (ValueIdx.contrEquiv1 Cert.KernelIdeal.dot_S512x1024_S512x1024_S1024x1024_0_0_1_1_n_n 512 rfl rfl).symm]
  refine Finset.sum_congr rfl fun k _ => ?_
  have hk := ValueIdx.contrEquiv1_symm_val Cert.KernelIdeal.dot_S512x1024_S512x1024_S1024x1024_0_0_1_1_n_n 512 rfl rfl k
  have el : Cert.KernelIdeal.dot_S512x1024_S512x1024_S1024x1024_0_0_1_1_n_n.lhsIdx (ix2 d e) ((ValueIdx.contrEquiv1 Cert.KernelIdeal.dot_S512x1024_S512x1024_S1024x1024_0_0_1_1_n_n 512 rfl rfl).symm k) = ix2 k d := funext fun x => Fin.ext (by
    match x with
    | ⟨0, _⟩ => exact (lhs_overRows_0 _ _).trans hk
    | ⟨1, _⟩ => exact lhs_overRows_1 _ _)
  have er : Cert.KernelIdeal.dot_S512x1024_S512x1024_S1024x1024_0_0_1_1_n_n.rhsIdx (ix2 d e) ((ValueIdx.contrEquiv1 Cert.KernelIdeal.dot_S512x1024_S512x1024_S1024x1024_0_0_1_1_n_n 512 rfl rfl).symm k) = ix2 k e := funext fun x => Fin.ext (by
    match x with
    | ⟨0, _⟩ => exact (rhs_overRows_0 _ _).trans hk
    | ⟨1, _⟩ => exact rhs_overRows_1 _ _)
  rw [el, er]

/-! ## The bodies' payloads read at an index -/

/-- A tile's activations under the dropped unit axis, times a weight matrix, is the row's dot product. -/
theorem projection_apply (x0 : FVec Ideal S1x512x1024 .bf16) (w : FVec Ideal S1024x1024 .bf16) (r : Fin 512) (e : Fin 1024) :
    matmul (F := Ideal) Cert.KernelIdeal.dot_S512x1024_S1024x1024_S512x1024_1_0_0_1_n_n none
        (shapeCast S512x1024 x0 shapeCasts_S1x512x1024_S512x1024) w (constant (F := Ideal) S512x1024 .f32 0x00000000#32) (ix2 r e)
      = rowDot x0 w r e := by
  refine (matmulRowsCols_apply _ w r e).trans ?_
  unfold rowDot
  refine Finset.sum_congr rfl fun k _ => ?_
  exact congrArg (· * w (ix2 k e)) (shapeCast_1ab_ab_apply x0 shapeCasts_S1x512x1024_S512x1024 r k)

/-- The accumulator's update: what it read plus the tile's contribution. -/
theorem k0_pay2_apply (v3 : FVec Ideal S1x512x1024 .bf16) (v5 v8 : FVec Ideal S1024x1024 .bf16) (v13 : FVec Ideal S1024x1024 .f32)
    (d e : Fin 1024) :
    k0_pay2 (F := Ideal) v3 v5 v8 v13 (ix2 d e) = v13 (ix2 d e) + tileKV v3 v5 v8 d e := by
  unfold k0_pay2
  simp only [shapeCast_self]
  refine (addf_apply v13 _ (ix2 d e)).trans ?_
  refine congrArg (v13 (ix2 d e) + ·) ?_
  refine (matmulOverRows_apply _ _ d e).trans ?_
  unfold tileKV
  refine Finset.sum_congr rfl fun r _ => ?_
  rw [truncf_apply, truncf_apply, projection_apply, projection_apply]

/-- The zeroed accumulator is zero everywhere. -/
theorem k0_pay1_apply (i : S1024x1024.Idx) : k0_pay1 (F := Ideal) i = 0 := by
  unfold k0_pay1
  simp only [shapeCast_self]
  exact Ideal.ofBits_zero_f32

/-- The second region's body: the gated query of a row against the key-value block. -/
theorem k1_pay1_apply (v0 : FVec Ideal S1x512x1024 .bf16) (v2 v5 : FVec Ideal S1024x1024 .bf16) (v10 : FVec Ideal S1x1024x1024 .bf16)
    (r : Fin 512) (e : Fin 1024) :
    k1_pay1 (F := Ideal) v0 v2 v5 v10 (ix3 0 r e)
      = ∑ d : Fin 1024, (rowDot v0 v2 r d * rowDot v0 v5 r d) * v10 (ix3 0 d e) := by
  unfold k1_pay1
  simp only [shapeCast_self]
  refine (shapeCast_ab_1ab_apply _ shapeCasts_S512x1024_S1x512x1024 0 r e).trans ?_
  refine (matmulRowsCols_apply _ _ r e).trans ?_
  refine Finset.sum_congr rfl fun d _ => ?_
  rw [truncf_apply, mulf_apply, projection_apply, projection_apply, shapeCast_1ab_ab_apply]

/-- After a batch's first tile the accumulator holds that tile's contribution (zero plus it). -/
theorem accFirst_apply (x0 : FVec Ideal S1x512x1024 .bf16) (x1 x2 : FVec Ideal S1024x1024 .bf16) (d e : Fin 1024) :
    accFirst (F := Ideal) x0 x1 x2 (ix2 d e) = tileKV x0 x1 x2 d e := by
  unfold accFirst
  rw [View.ld_unit_zero hz3, View.ld_unit_zero hz2, View.ld_unit_zero hz2, k0_pay2_apply, k0_pay1_apply, zero_add]

/-- After a later tile it holds what it held plus that tile's contribution. -/
theorem accNext_apply (xs : FVec Ideal S1024x1024 .f32) (x0 : FVec Ideal S1x512x1024 .bf16) (x1 x2 : FVec Ideal S1024x1024 .bf16) (d e : Fin 1024) :
    accNext (F := Ideal) xs x0 x1 x2 (ix2 d e) = xs (ix2 d e) + tileKV x0 x1 x2 d e := by
  unfold accNext
  rw [View.ld_unit_zero hz3, View.ld_unit_zero hz2, View.ld_unit_zero hz2, View.ld_unit_zero hz2, k0_pay2_apply]

/-- The first region's output block is the accumulator under a leading unit axis. -/
theorem outLast_apply (a : FVec Ideal S1024x1024 .f32) (d e : Fin 1024) :
    outLast (F := Ideal) a (ix3 0 d e) = a (ix2 d e) := by
  unfold outLast k0_pay3
  exact shapeCast_ab_1ab_apply a shapeCasts_S1024x1024_S1x1024x1024 0 d e

/-- The second region's output block at row `r`, feature `e`: the gated query of the row against the batch's
    key-value block. -/
theorem out1_4_apply (x0 : FVec Ideal S1x512x1024 .bf16) (x1 x2 : FVec Ideal S1024x1024 .bf16) (x3 : FVec Ideal S1x1024x1024 .bf16)
    (r : Fin 512) (e : Fin 1024) :
    out1_4 (F := Ideal) x0 x1 x2 x3 (ix3 0 r e) = ∑ d : Fin 1024, (rowDot x0 x1 r d * rowDot x0 x2 r d) * x3 (ix3 0 d e) := by
  unfold out1_4
  rw [View.canon_unit_zero hz3, View.ld_unit_zero hz3, View.ld_unit_zero hz2, View.ld_unit_zero hz2, View.ld_unit_zero hz3,
    k1_pay1_apply]

end Cert.KernelIdeal.Val

end
-- ==== Proof.Spec.lean ====
/-
  The mathematics both programs compute, stated once over the extended reals with every index a literal
  `Fin`: a row of `x` against a column of a weight matrix (`proj`), the key-value product of one batch summed
  over all 4096 rows (`kv`), and the gated query against it (`out`):

    out b n e = ∑ d, (x_b[n,:]·Wql[:,d]) (x_b[n,:]·Wqr[:,d]) · ∑ n', (x_b[n',:]·Wk[:,d]) (x_b[n',:]·Wv[:,e]).

  Only the commutative-monoid structure of `+` on the extended reals is used to relate two arrangements of
  these sums, so no finiteness of the inputs is needed anywhere.
-/
import Idealize.ShloMosaic.Lib.ValueIdx
import Idealize.ShloMosaic.PureOps.Ideal

noncomputable section

namespace Cert.Spec

open Idealize.ShloMosaic Idealize.ShloMosaic.ValueIdx

/-- The activations' shape, a weight matrix's, and the per-batch key-value product's. -/
abbrev SX : Shape := ⟨3, ![4, 4096, 1024]⟩
abbrev SW : Shape := ⟨2, ![1024, 1024]⟩
abbrev SKV : Shape := ⟨3, ![4, 1024, 1024]⟩

/-- Row `n` of batch `b` of `x` against column `e` of `w`. -/
def proj (x : SX.Idx → EReal) (w : SW.Idx → EReal) (b : Fin 4) (n : Fin 4096) (e : Fin 1024) : EReal :=
  ∑ k : Fin 1024, x (ix3 b n k) * w (ix2 k e)

/-- Batch `b`'s key-value product: keyᵀ·value, the sum running over all 4096 rows. -/
def kv (x : SX.Idx → EReal) (wk wv : SW.Idx → EReal) (b : Fin 4) (d e : Fin 1024) : EReal :=
  ∑ n : Fin 4096, proj x wk b n d * proj x wv b n e

/-- The gated query of row `n` of batch `b`, at feature `d`. -/
def gate (x : SX.Idx → EReal) (wql wqr : SW.Idx → EReal) (b : Fin 4) (n : Fin 4096) (d : Fin 1024) : EReal :=
  proj x wql b n d * proj x wqr b n d

/-- The result at batch `b`, row `n`, feature `e`. -/
def out (x : SX.Idx → EReal) (wql wqr wk wv : SW.Idx → EReal) (b : Fin 4) (n : Fin 4096) (e : Fin 1024) : EReal :=
  ∑ d : Fin 1024, gate x wql wqr b n d * kv x wk wv b d e

/-- The result as an array. -/
def outArr (x : SX.Idx → EReal) (wql wqr wk wv : SW.Idx → EReal) : SX.Idx → EReal :=
  fun i => out x wql wqr wk wv (i 0) (i 1) (i 2)

end Cert.Spec

end
-- ==== Proof.Val.Region0Val.lean ====
/-
  The first region's result array at the ideal instance: after the region, batch `b`'s block of the output array
  holds the key-value product of the whole batch, `∑ n, key b n d · value b n e` over all 4096 rows, because the
  accumulator after row tile `n` of batch `b` holds the partial sum over the batch's first `n + 1` tiles and the
  block is written back at the batch's last tile.
-/
import proofs.«142361_j103079215338_1_alg».proof.Proof.KI.Region0
import proofs.«142361_j103079215338_1_alg».proof.Proof.Val.Sums
import proofs.«142361_j103079215338_1_alg».proof.Proof.Val.Payloads
import proofs.«142361_j103079215338_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL.Sem

variable (V : (c : Dev nD) → (b : Ref sig .tc) → Buf (Elt Ideal) ((c : Thread nD τ).loc b))

/-- The key-value product of every batch, as the first region's output array, from the region's three input arrays
    as it finds them (the activations, the key weights, the value weights). -/
def kvArr (c : Dev nD) : Buf (Elt Ideal) ((c : Thread nD τ).loc main_v5) :=
  fun i => Cert.Spec.kv (V c main_v0) (V c main_v1) (V c main_v2) (i 0) (i 1) (i 2)

/-- The windows' block indices at point `t = 8·b + n`: the activations' tile is block `(b, n, 0)`, the two weight
    matrices are their only blocks, the output's block is `(b, 0, 0)`. -/
theorem blockIndex0 : ∀ t : Fin cfg0.N,
    win0_0.index t (0 : Fin 3) = t.val / 8 ∧ win0_0.index t (1 : Fin 3) = t.val % 8 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val / 8 ∧ win0_3.index t (1 : Fin 3) = 0 ∧ win0_3.index t (2 : Fin 3) = 0 :=
  (by decide +kernel : ∀ t : Fin grid0.N, _)

/-- The activations' tile at point `t` read at row `r`: row `512·(t % 8) + r` of batch `t / 8`. -/
theorem xTile_apply (c : Dev nD) (t : Fin cfg0.N) (r : Fin 512) (k : Fin 1024) (b : Fin 4) (n : Fin 4096)
    (hb : b.val = t.val / 8) (hn : n.val = 512 * (t.val % 8) + r.val) :
    (iblk0 V c 0 t : FVec Ideal S1x512x1024 .bf16) (ix3 0 r k) = (V c main_v0 : S4x4096x1024.Idx → EReal) (ix3 b n k) := by
  obtain ⟨e0, e1, e2, -⟩ := blockIndex0 t
  unfold iblk0
  rw [View.read_apply]
  show V c main_v0 (((cfg0.win 0).blk t).view.emb (ix3 0 r k)) = V c main_v0 (ix3 b n k)
  congr 1
  funext a
  apply Fin.ext
  match a with
  | ⟨0, _⟩ => show win0_0.index t (0 : Fin 3) * 1 + 1 * 0 = b.val; omega
  | ⟨1, _⟩ => show win0_0.index t (1 : Fin 3) * 512 + 1 * r.val = n.val; omega
  | ⟨2, _⟩ => show win0_0.index t (2 : Fin 3) * 1024 + 1 * k.val = k.val; omega

/-- The key weights' block at any point is the whole matrix. -/
theorem wkBlock_apply (c : Dev nD) (t : Fin cfg0.N) (k d : Fin 1024) :
    (iblk0 V c 1 t : FVec Ideal S1024x1024 .bf16) (ix2 k d) = (V c main_v1 : S1024x1024.Idx → EReal) (ix2 k d) := by
  obtain ⟨-, -, -, e0, e1, -⟩ := blockIndex0 t
  unfold iblk0
  rw [View.read_apply]
  show V c main_v1 (((cfg0.win 1).blk t).view.emb (ix2 k d)) = V c main_v1 (ix2 k d)
  congr 1
  funext a
  apply Fin.ext
  match a with
  | ⟨0, _⟩ => show win0_1.index t (0 : Fin 2) * 1024 + 1 * k.val = k.val; omega
  | ⟨1, _⟩ => show win0_1.index t (1 : Fin 2) * 1024 + 1 * d.val = d.val; omega

/-- The value weights' block at any point is the whole matrix. -/
theorem wvBlock_apply (c : Dev nD) (t : Fin cfg0.N) (k e : Fin 1024) :
    (iblk0 V c 2 t : FVec Ideal S1024x1024 .bf16) (ix2 k e) = (V c main_v2 : S1024x1024.Idx → EReal) (ix2 k e) := by
  obtain ⟨-, -, -, -, -, e0, e1, -⟩ := blockIndex0 t
  unfold iblk0
  rw [View.read_apply]
  show V c main_v2 (((cfg0.win 2).blk t).view.emb (ix2 k e)) = V c main_v2 (ix2 k e)
  congr 1
  funext a
  apply Fin.ext
  match a with
  | ⟨0, _⟩ => show win0_2.index t (0 : Fin 2) * 1024 + 1 * k.val = k.val; omega
  | ⟨1, _⟩ => show win0_2.index t (1 : Fin 2) * 1024 + 1 * e.val = e.val; omega

/-- A row of the tile against a column of the key weights is the specification's projection of that row. -/
theorem rowDot_key (c : Dev nD) (t : Fin cfg0.N) (r : Fin 512) (d : Fin 1024) (b : Fin 4) (n : Fin 4096)
    (hb : b.val = t.val / 8) (hn : n.val = 512 * (t.val % 8) + r.val) :
    rowDot (iblk0 V c 0 t) (iblk0 V c 1 t) r d = Cert.Spec.proj (V c main_v0) (V c main_v1) b n d := by
  unfold rowDot Cert.Spec.proj
  exact Finset.sum_congr rfl fun k _ => congrArg₂ (· * ·) (xTile_apply V c t r k b n hb hn) (wkBlock_apply V c t k d)

/-- The same against a column of the value weights. -/
theorem rowDot_value (c : Dev nD) (t : Fin cfg0.N) (r : Fin 512) (e : Fin 1024) (b : Fin 4) (n : Fin 4096)
    (hb : b.val = t.val / 8) (hn : n.val = 512 * (t.val % 8) + r.val) :
    rowDot (iblk0 V c 0 t) (iblk0 V c 2 t) r e = Cert.Spec.proj (V c main_v0) (V c main_v2) b n e := by
  unfold rowDot Cert.Spec.proj
  exact Finset.sum_congr rfl fun k _ => congrArg₂ (· * ·) (xTile_apply V c t r k b n hb hn) (wvBlock_apply V c t k e)

/-- Row tile `j` of batch `b`'s contribution to the key-value product at `(d, e)`, in the specification's terms
    (nothing past the eighth tile). -/
def tileTerm (c : Dev nD) (b : Fin 4) (j : ℕ) (d e : Fin 1024) : EReal :=
  if h : j < 8 then
    ∑ r : Fin 512, Cert.Spec.proj (V c main_v0) (V c main_v1) b ⟨512 * j + r.val, by omega⟩ d
      * Cert.Spec.proj (V c main_v0) (V c main_v2) b ⟨512 * j + r.val, by omega⟩ e
  else 0

/-- The tile the body reads at point `8·b + j` contributes `tileTerm b j`. -/
theorem tileKV_eq (c : Dev nD) (t : Fin cfg0.N) (b : Fin 4) (j : ℕ) (hj : j < 8) (ht : t.val = 8 * b.val + j) (d e : Fin 1024) :
    tileKV (iblk0 V c 0 t) (iblk0 V c 1 t) (iblk0 V c 2 t) d e = tileTerm V c b j d e := by
  unfold tileKV tileTerm
  rw [dif_pos hj]
  refine Finset.sum_congr rfl fun r _ => ?_
  exact congrArg₂ (· * ·)
    (rowDot_key V c t r d b ⟨512 * j + r.val, by omega⟩ (by omega) (by show 512 * j + r.val = 512 * (t.val % 8) + r.val; omega))
    (rowDot_value V c t r e b ⟨512 * j + r.val, by omega⟩ (by omega) (by show 512 * j + r.val = 512 * (t.val % 8) + r.val; omega))

/-- The accumulator at equal positions. -/
theorem accAt0_congr (c : Dev nD) (u v : ℕ) (hu : u < cfg0.N) (hv : v < cfg0.N) (e : u = v) : accAt0 V c u hu = accAt0 V c v hv := by
  subst e; rfl

/-- After row tile `n` of batch `b` the accumulator holds the partial sum over the batch's tiles `0 … n`. -/
theorem acc_partial (c : Dev nD) (b : Fin 4) (d e : Fin 1024) (n : ℕ) : ∀ (hn : n < 8) (h : 8 * b.val + n < cfg0.N),
    (accAt0 V c (8 * b.val + n) h : FVec Ideal S1024x1024 .f32) (ix2 d e) = ∑ j ∈ Finset.range (n + 1), tileTerm V c b j d e := by
  induction n with
  | zero =>
    intro hn h
    have h0 := accAt0_first V c ⟨8 * b.val + 0, h⟩ (by show (8 * b.val + 0) % 8 = 0; omega)
    rw [Finset.sum_range_one, show accAt0 V c (8 * b.val + 0) h = _ from h0, accFirst_apply,
      tileKV_eq V c ⟨8 * b.val + 0, h⟩ b 0 hn rfl]
  | succ n ih =>
    intro hn h
    have hlt : 8 * b.val + n < cfg0.N := by omega
    have h1 := accAt0_next V c ⟨8 * b.val + (n + 1), h⟩ (by show ¬(8 * b.val + (n + 1)) % 8 = 0; omega)
    rw [Finset.sum_range_succ, ← ih (by omega) hlt, show accAt0 V c (8 * b.val + (n + 1)) h = _ from h1, accNext_apply,
      tileKV_eq V c ⟨8 * b.val + (n + 1), h⟩ b (n + 1) hn rfl]
    rw [accAt0_congr V c (8 * b.val + (n + 1) - 1) (8 * b.val + n) _ hlt (by omega)]

/-- At a batch's last row tile the accumulator holds the batch's whole key-value product. -/
theorem acc_last (c : Dev nD) (t : Fin cfg0.N) (h7 : t.val % 8 = 7) (b : Fin 4) (hb : b.val = t.val / 8) (d e : Fin 1024) :
    (accAt0 V c t.val t.isLt : FVec Ideal S1024x1024 .f32) (ix2 d e) = Cert.Spec.kv (V c main_v0) (V c main_v1) (V c main_v2) b d e := by
  have hN : cfg0.N = 32 := N_0
  have h : 8 * b.val + 7 < cfg0.N := by have := t.isLt; omega
  rw [accAt0_congr V c t.val (8 * b.val + 7) t.isLt h (by omega), acc_partial V c b d e 7 (by omega) h]
  show ∑ j ∈ Finset.range 8, tileTerm V c b j d e = _
  rw [Cert.Sums.sum_range_eight]
  unfold Cert.Spec.kv
  rw [Cert.Sums.sum_tiles]
  refine Finset.sum_congr rfl fun j _ => ?_
  unfold tileTerm
  rw [dif_pos j.isLt]

/-- The specification's array read at an index given by its coordinates. -/
theorem kvArr_apply (c : Dev nD) (b : Fin 4) (d e : Fin 1024) :
    kvArr V c (ix3 b d e) = Cert.Spec.kv (V c main_v0) (V c main_v1) (V c main_v2) b d e := rfl

/-- What a batch's last row tile leaves in the output block, read at an index of the block, is the specification's
    array at the index under it: the block at point `t` is batch `t / 8`'s slab. -/
theorem outBlock_apply (c : Dev nD) (t : Fin cfg0.N) (h7 : t.val % 8 = 7) (y : S1x1024x1024.Idx) :
    (outLast (accAt0 V c t.val t.isLt) : FVec Ideal S1x1024x1024 .f32) y = kvArr V c (((cfg0.win 3).blk t).view.emb y) := by
  have hN : cfg0.N = 32 := N_0
  obtain ⟨-, -, -, -, -, -, -, e0, e1, e2⟩ := blockIndex0 t
  obtain ⟨u, d, e, rfl⟩ : ∃ (u : Fin 1) (d e : Fin 1024), y = ix3 u d e := ⟨y 0, y 1, y 2, eq_ix3 y⟩
  obtain rfl : u = 0 := Subsingleton.elim _ _
  have hb : t.val / 8 < 4 := by have := t.isLt; omega
  have hemb : ((cfg0.win 3).blk t).view.emb (ix3 0 d e) = (ix3 (⟨t.val / 8, hb⟩ : Fin 4) d e : S4x1024x1024.Idx) := by
    funext a
    apply Fin.ext
    match a with
    | ⟨0, _⟩ => show win0_3.index t (0 : Fin 3) * 1 + 1 * 0 = t.val / 8; omega
    | ⟨1, _⟩ => show win0_3.index t (1 : Fin 3) * 1024 + 1 * d.val = d.val; omega
    | ⟨2, _⟩ => show win0_3.index t (2 : Fin 3) * 1024 + 1 * e.val = e.val; omega
  rw [hemb, kvArr_apply, outLast_apply]
  exact acc_last V c t h7 ⟨t.val / 8, hb⟩ rfl d e

/-- What a point that writes the output block back writes is its block of the specification's array. -/
theorem flushed_kv (c : Dev nD) (t : Fin cfg0.N) (hf : (cfg0.win 3).flush t = true) :
    (dat0 V c).flushed 3 t = ((cfg0.win 3).blk t).view.read (Elt Ideal) (kvArr V c) := by
  have h7 : t.val % 8 = 7 := (flush0_3 t).mp hf
  show (cfg0.win 3).cut (grid0.coords t) ((dat0 V c).after 3 t) = _
  rw [after0_3]
  funext y
  rw [View.read_apply]
  exact outBlock_apply V c t h7 y

/-- An index of the output array is in point `t`'s block iff each coordinate is in the block's range on its axis. -/
theorem mem_kvBlock (t : Fin cfg0.N) (i : S4x1024x1024.Idx) :
    i ∈ ((cfg0.win 3).blk t).view.set ↔ ∀ a : Fin 3, win0_3.index t a * S1x1024x1024.size a ≤ (i a).val ∧ (i a).val < win0_3.index t a * S1x1024x1024.size a + S1x1024x1024.size a := by
  show i ∈ ((View.whole main_v5).slice (win0_3.rect t)).set ↔ _
  rw [View.set_slice_whole, Rect.mem_set_unit]
  exact Iff.rfl

/-- Every index `(b, d, e)` of the output array lies in the block written back at batch `b`'s last row tile. -/
theorem kv_covered (i : S4x1024x1024.Idx) : ∃ t : Fin cfg0.N, (cfg0.win 3).flush t = true ∧ i ∈ ((cfg0.win 3).blk t).view.set := by
  have hN : cfg0.N = 32 := N_0
  have hi0 : (i 0).val < 4 := (i 0).isLt
  have hi1 : (i 1).val < 1024 := (i 1).isLt
  have hi2 : (i 2).val < 1024 := (i 2).isLt
  have hlt : 8 * (i 0).val + 7 < cfg0.N := by omega
  obtain ⟨-, -, -, -, -, -, -, e0, e1, e2⟩ := blockIndex0 ⟨8 * (i 0).val + 7, hlt⟩
  have e0' : win0_3.index ⟨8 * (i 0).val + 7, hlt⟩ (0 : Fin 3) = (8 * (i 0).val + 7) / 8 := e0
  refine ⟨⟨8 * (i 0).val + 7, hlt⟩, (flush0_3 _).mpr (by show (8 * (i 0).val + 7) % 8 = 7; omega), ?_⟩
  rw [mem_kvBlock]
  intro a
  match a with
  | ⟨0, _⟩ => show win0_3.index ⟨8 * (i 0).val + 7, hlt⟩ (0 : Fin 3) * 1 ≤ (i 0).val ∧ (i 0).val < win0_3.index ⟨8 * (i 0).val + 7, hlt⟩ (0 : Fin 3) * 1 + 1; omega
  | ⟨1, _⟩ => show win0_3.index ⟨8 * (i 0).val + 7, hlt⟩ (1 : Fin 3) * 1024 ≤ (i 1).val ∧ (i 1).val < win0_3.index ⟨8 * (i 0).val + 7, hlt⟩ (1 : Fin 3) * 1024 + 1024; omega
  | ⟨2, _⟩ => show win0_3.index ⟨8 * (i 0).val + 7, hlt⟩ (2 : Fin 3) * 1024 ≤ (i 2).val ∧ (i 2).val < win0_3.index ⟨8 * (i 0).val + 7, hlt⟩ (2 : Fin 3) * 1024 + 1024; omega

/-- After the region its output array holds `kvArr`. -/
theorem kv_array (c : Dev nD) : (dat0 (F := Ideal) V c).arrAt 3 cfg0.N = kvArr V c :=
  (dat0 V c).arrAt_eq_of_cover 3 (kvArr V c) (fun t hf => flushed_kv V c t hf) (fun i => kv_covered i)

end Cert.KernelIdeal.Val

end
-- ==== Proof.Val.Region1Val.lean ====
/-
  The second region's result array at the ideal instance: each grid point writes back its own 512-row block of the
  output, and row `n` of batch `b` at feature `e` is the gated query of that row against the batch's block of the
  key-value array the region finds.
-/
import proofs.«142361_j103079215338_1_alg».proof.Proof.KI.Region1
import proofs.«142361_j103079215338_1_alg».proof.Proof.Val.Payloads
import proofs.«142361_j103079215338_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL.Sem

variable (V : (c : Dev nD) → (b : Ref sig .tc) → Buf (Elt Ideal) ((c : Thread nD τ).loc b))

/-- The second region's output array from its four input arrays as it finds them: the activations, the two query
    weight matrices, and the key-value array. -/
def outArr1 (c : Dev nD) : Buf (Elt Ideal) ((c : Thread nD τ).loc main_v7) :=
  fun i => ((∑ d : Fin 1024, Cert.Spec.gate (V c main_v0) (V c main_v3) (V c main_v4) (i 0) (i 1) d
    * (V c main_v6 (ix3 (n0 := 4) (n1 := 1024) (n2 := 1024) (i 0) d (i 2)) : EReal)) : EReal)

/-- The block indices at point `t = 8·b + n`: the activations' and the output's block is `(b, n, 0)`, the weight
    matrices' `(0, 0)`, the key-value array's `(b, 0, 0)`. -/
theorem blockIdx1 : ∀ t : Fin cfg1.N,
    win1_0.index t (0 : Fin 3) = t.val / 8 ∧ win1_0.index t (1 : Fin 3) = t.val % 8 ∧ win1_0.index t (2 : Fin 3) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 3) = t.val / 8 ∧ win1_3.index t (1 : Fin 3) = 0 ∧ win1_3.index t (2 : Fin 3) = 0
    ∧ win1_4.index t (0 : Fin 3) = t.val / 8 ∧ win1_4.index t (1 : Fin 3) = t.val % 8 ∧ win1_4.index t (2 : Fin 3) = 0 :=
  (by decide +kernel : ∀ t : Fin grid1.N, _)

/-- The activations' block at point `t`, row `r`: row `512·(t mod 8) + r` of batch `t / 8`. -/
theorem iblk1_0_apply (c : Dev nD) (t : Fin cfg1.N) (r : Fin 512) (k : Fin 1024) (b : Fin 4) (n : Fin 4096)
    (hb : b.val = t.val / 8) (hn : n.val = 512 * (t.val % 8) + r.val) :
    (iblk1 V c 0 t : FVec Ideal S1x512x1024 .bf16) (ix3 0 r k) = (V c main_v0 : S4x4096x1024.Idx → EReal) (ix3 b n k) := by
  obtain ⟨e0, e1, e2, -⟩ := blockIdx1 t
  unfold iblk1
  rw [View.read_apply]
  show V c main_v0 _ = V c main_v0 _
  congr 1
  funext a; apply Fin.ext
  match a with
  | ⟨0, _⟩ => show win1_0.index t (0 : Fin 3) * 1 + 1 * 0 = b.val; omega
  | ⟨1, _⟩ => show win1_0.index t (1 : Fin 3) * 512 + 1 * r.val = n.val; omega
  | ⟨2, _⟩ => show win1_0.index t (2 : Fin 3) * 1024 + 1 * k.val = k.val; omega

/-- The left query weights' block is the whole matrix. -/
theorem iblk1_1_apply (c : Dev nD) (t : Fin cfg1.N) (k d : Fin 1024) :
    (iblk1 V c 1 t : FVec Ideal S1024x1024 .bf16) (ix2 k d) = (V c main_v3 : S1024x1024.Idx → EReal) (ix2 k d) := by
  obtain ⟨-, -, -, e0, e1, -⟩ := blockIdx1 t
  unfold iblk1
  rw [View.read_apply]
  show V c main_v3 _ = V c main_v3 _
  congr 1
  funext a; apply Fin.ext
  match a with
  | ⟨0, _⟩ => show win1_1.index t (0 : Fin 2) * 1024 + 1 * k.val = k.val; omega
  | ⟨1, _⟩ => show win1_1.index t (1 : Fin 2) * 1024 + 1 * d.val = d.val; omega

/-- The right query weights' block is the whole matrix. -/
theorem iblk1_2_apply (c : Dev nD) (t : Fin cfg1.N) (k d : Fin 1024) :
    (iblk1 V c 2 t : FVec Ideal S1024x1024 .bf16) (ix2 k d) = (V c main_v4 : S1024x1024.Idx → EReal) (ix2 k d) := by
  obtain ⟨-, -, -, -, -, e0, e1, -⟩ := blockIdx1 t
  unfold iblk1
  rw [View.read_apply]
  show V c main_v4 _ = V c main_v4 _
  congr 1
  funext a; apply Fin.ext
  match a with
  | ⟨0, _⟩ => show win1_2.index t (0 : Fin 2) * 1024 + 1 * k.val = k.val; omega
  | ⟨1, _⟩ => show win1_2.index t (1 : Fin 2) * 1024 + 1 * d.val = d.val; omega

/-- The key-value array's block at point `t` is batch `t / 8`'s. -/
theorem iblk1_3_apply (c : Dev nD) (t : Fin cfg1.N) (d e : Fin 1024) (b : Fin 4) (hb : b.val = t.val / 8) :
    (iblk1 V c 3 t : FVec Ideal S1x1024x1024 .bf16) (ix3 0 d e) = (V c main_v6 : S4x1024x1024.Idx → EReal) (ix3 b d e) := by
  obtain ⟨-, -, -, -, -, -, -, e0, e1, e2, -⟩ := blockIdx1 t
  unfold iblk1
  rw [View.read_apply]
  show V c main_v6 _ = V c main_v6 _
  congr 1
  funext a; apply Fin.ext
  match a with
  | ⟨0, _⟩ => show win1_3.index t (0 : Fin 3) * 1 + 1 * 0 = b.val; omega
  | ⟨1, _⟩ => show win1_3.index t (1 : Fin 3) * 1024 + 1 * d.val = d.val; omega
  | ⟨2, _⟩ => show win1_3.index t (2 : Fin 3) * 1024 + 1 * e.val = e.val; omega

/-- A row of the activations' block against a column of the left query weights is the specification's projection of
    that row of the batch. -/
theorem rowDot_left (c : Dev nD) (t : Fin cfg1.N) (r : Fin 512) (d : Fin 1024) (b : Fin 4) (n : Fin 4096)
    (hb : b.val = t.val / 8) (hn : n.val = 512 * (t.val % 8) + r.val) :
    rowDot (iblk1 V c 0 t) (iblk1 V c 1 t) r d = Cert.Spec.proj (V c main_v0) (V c main_v3) b n d := by
  unfold rowDot Cert.Spec.proj
  refine Finset.sum_congr rfl fun k _ => ?_
  rw [iblk1_0_apply V c t r k b n hb hn, iblk1_1_apply V c t k d]

/-- The same against the right query weights. -/
theorem rowDot_right (c : Dev nD) (t : Fin cfg1.N) (r : Fin 512) (d : Fin 1024) (b : Fin 4) (n : Fin 4096)
    (hb : b.val = t.val / 8) (hn : n.val = 512 * (t.val % 8) + r.val) :
    rowDot (iblk1 V c 0 t) (iblk1 V c 2 t) r d = Cert.Spec.proj (V c main_v0) (V c main_v4) b n d := by
  unfold rowDot Cert.Spec.proj
  refine Finset.sum_congr rfl fun k _ => ?_
  rw [iblk1_0_apply V c t r k b n hb hn, iblk1_2_apply V c t k d]

/-- The output's block at point `t` sits at batch `t / 8`, rows `512·(t mod 8) …`. -/
theorem oblk1_emb (t : Fin cfg1.N) (r : Fin 512) (e : Fin 1024) (b : Fin 4) (n : Fin 4096)
    (hb : b.val = t.val / 8) (hn : n.val = 512 * (t.val % 8) + r.val) :
    (((cfg1.win 4).blk t).view.emb (ix3 (n0 := 1) (n1 := 512) (n2 := 1024) 0 r e) : S4x4096x1024.Idx) = ix3 b n e := by
  obtain ⟨-, -, -, -, -, -, -, -, -, -, e0, e1, e2⟩ := blockIdx1 t
  funext a; apply Fin.ext
  match a with
  | ⟨0, _⟩ => show win1_4.index t (0 : Fin 3) * 1 + 1 * 0 = b.val; omega
  | ⟨1, _⟩ => show win1_4.index t (1 : Fin 3) * 512 + 1 * r.val = n.val; omega
  | ⟨2, _⟩ => show win1_4.index t (2 : Fin 3) * 1024 + 1 * e.val = e.val; omega

/-- What point `t` writes back is its block of `outArr1`. -/
theorem flushed1_eq (c : Dev nD) (t : Fin cfg1.N) :
    (dat1 (F := Ideal) V c).flushed 4 t = ((cfg1.win 4).blk t).view.read (Elt Ideal) (outArr1 V c) := by
  show (cfg1.win 4).cut (grid1.coords t) ((dat1 (F := Ideal) V c).after 4 t) = _
  rw [after1_4]
  refine funext fun (j : S1x512x1024.Idx) => ?_
  obtain ⟨r, e, rfl⟩ : ∃ (r : Fin 512) (e : Fin 1024), j = ix3 0 r e :=
    ⟨j 1, j 2, (eq_ix3 j).trans (congrArg (fun z : Fin 1 => ix3 z (j 1) (j 2))
      (Fin.ext (by have h : (j 0).val < 1 := (j 0).isLt; show (j 0).val = 0; omega)))⟩
  have ht : t.val < 32 := t.isLt
  have hr : r.val < 512 := r.isLt
  rw [View.read_apply, oblk1_emb t r e ⟨t.val / 8, by omega⟩ ⟨512 * (t.val % 8) + r.val, by omega⟩ rfl rfl]
  show out1_4 (F := Ideal) (iblk1 V c 0 t) (iblk1 V c 1 t) (iblk1 V c 2 t) (iblk1 V c 3 t) (ix3 0 r e) = _
  rw [out1_4_apply]
  unfold outArr1 Cert.Spec.gate
  refine Finset.sum_congr rfl fun d _ => ?_
  rw [rowDot_left V c t r d ⟨t.val / 8, by omega⟩ ⟨512 * (t.val % 8) + r.val, by omega⟩ rfl rfl,
    rowDot_right V c t r d ⟨t.val / 8, by omega⟩ ⟨512 * (t.val % 8) + r.val, by omega⟩ rfl rfl,
    iblk1_3_apply V c t d e ⟨t.val / 8, by omega⟩ rfl]
  rfl

/-- An index of the output is in point `t`'s block iff each coordinate is in the block's range on its axis. -/
theorem mem_oblk1 (t : Fin cfg1.N) (i : S4x4096x1024.Idx) :
    i ∈ ((cfg1.win 4).blk t).view.set ↔ ∀ a : Fin 3, win1_4.index t a * S1x512x1024.size a ≤ (i a).val ∧ (i a).val < win1_4.index t a * S1x512x1024.size a + S1x512x1024.size a := by
  show i ∈ ((View.whole main_v7).slice (win1_4.rect t)).set ↔ _
  rw [View.set_slice_whole, Rect.mem_set_unit]
  exact Iff.rfl

/-- Every index of the output lies in the block of the point of its batch and row tile. -/
theorem cover1 (i : S4x4096x1024.Idx) :
    ∃ t : Fin cfg1.N, (cfg1.win 4).flush t = true ∧ i ∈ ((cfg1.win 4).blk t).view.set := by
  have h0 : (i 0).val < 4 := (i 0).isLt
  have h1 : (i 1).val < 4096 := (i 1).isLt
  have h2 : (i 2).val < 1024 := (i 2).isLt
  refine ⟨⟨8 * (i 0).val + (i 1).val / 512, by show _ < 32; omega⟩, flush1_4 _, ?_⟩
  rw [mem_oblk1]
  obtain ⟨-, -, -, -, -, -, -, -, -, -, e0, e1, e2⟩ := blockIdx1 ⟨8 * (i 0).val + (i 1).val / 512, by show _ < 32; omega⟩
  intro a
  match a with
  | ⟨0, _⟩ => show win1_4.index _ (0 : Fin 3) * 1 ≤ (i 0).val ∧ (i 0).val < win1_4.index _ (0 : Fin 3) * 1 + 1; rw [e0]; show (8 * (i 0).val + (i 1).val / 512) / 8 * 1 ≤ _ ∧ _ < (8 * (i 0).val + (i 1).val / 512) / 8 * 1 + 1; omega
  | ⟨1, _⟩ => show win1_4.index _ (1 : Fin 3) * 512 ≤ (i 1).val ∧ (i 1).val < win1_4.index _ (1 : Fin 3) * 512 + 512; rw [e1]; show (8 * (i 0).val + (i 1).val / 512) % 8 * 512 ≤ _ ∧ _ < (8 * (i 0).val + (i 1).val / 512) % 8 * 512 + 512; omega
  | ⟨2, _⟩ => show win1_4.index _ (2 : Fin 3) * 1024 ≤ (i 2).val ∧ (i 2).val < win1_4.index _ (2 : Fin 3) * 1024 + 1024; rw [e2]; omega

/-- After the region its output array holds `outArr1`. -/
theorem out_array (c : Dev nD) : (dat1 (F := Ideal) V c).arrAt 4 cfg1.N = outArr1 V c := by
  exact (dat1 (F := Ideal) V c).arrAt_eq_of_cover 4 (outArr1 V c) (fun t _ => flushed1_eq V c t) cover1

end Cert.KernelIdeal.Val

end
-- ==== Proof.Val.Main.lean ====
/-
  The idealized kernel's result array is the specification: the second region's array is the gated query of each row
  against the key-value array it finds; that array is the first region's, the key-value product of each whole batch;
  and the arrays both regions read are the arguments themselves, a change of float format being the identity.
-/
import proofs.«142361_j103079215338_1_alg».proof.Proof.Val.Host
import proofs.«142361_j103079215338_1_alg».proof.Proof.Val.Region0Val
import proofs.«142361_j103079215338_1_alg».proof.Proof.Val.Region1Val
import proofs.«142361_j103079215338_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL.Sem

variable (m : (ℓ : Loc nD τ sig) → Buf (Elt Ideal) ℓ)

/-- The key-value array the second region finds is the specification's, of the arguments. -/
theorem kv_entry (c : Dev nD) (b : Fin 4) (d e : Fin 1024) :
    (Hand.V3 (F := Ideal) m c main_v6 : S4x1024x1024.Idx → EReal) (ix3 b d e)
      = Cert.Spec.kv (m ((c : Thread nD τ).loc main_arg0)) (m ((c : Thread nD τ).loc main_arg3)) (m ((c : Thread nD τ).loc main_arg4)) b d e := by
  rw [V3_v6 m c, kv_array (Hand.V1 m) c]
  unfold kvArr
  rw [V1_v0 m c, V1_v1 m c, V1_v2 m c]
  rfl

/-- The second region's array read at batch `b`, row `n`, feature `e`. -/
theorem outArr1_apply (V : (c : Dev nD) → (b : Ref sig .tc) → Buf (Elt Ideal) ((c : Thread nD τ).loc b)) (c : Dev nD)
    (b : Fin 4) (n : Fin 4096) (e : Fin 1024) :
    (outArr1 V c : S4x4096x1024.Idx → EReal) (ix3 b n e)
      = ∑ d : Fin 1024, Cert.Spec.gate (V c main_v0) (V c main_v3) (V c main_v4) b n d * (V c main_v6 (ix3 b d e) : EReal) := rfl

/-- The result array after the run is the specification's array of the five arguments. -/
theorem result_eq (c : Dev nD) :
    ((dat1 (F := Ideal) (Hand.V3 m) c).arrAt 4 cfg1.N : S4x4096x1024.Idx → EReal)
      = Cert.Spec.outArr (m ((c : Thread nD τ).loc main_arg0)) (m ((c : Thread nD τ).loc main_arg1)) (m ((c : Thread nD τ).loc main_arg2))
          (m ((c : Thread nD τ).loc main_arg3)) (m ((c : Thread nD τ).loc main_arg4)) := by
  rw [out_array (Hand.V3 m) c]
  funext i
  obtain ⟨b, n, e, rfl⟩ : ∃ (b : Fin 4) (n : Fin 4096) (e : Fin 1024), i = ix3 b n e := ⟨i 0, i 1, i 2, eq_ix3 i⟩
  refine Eq.trans (outArr1_apply (Hand.V3 m) c b n e) ?_
  show _ = ∑ d : Fin 1024, Cert.Spec.gate (m ((c : Thread nD τ).loc main_arg0)) (m ((c : Thread nD τ).loc main_arg1)) (m ((c : Thread nD τ).loc main_arg2)) b n d
      * Cert.Spec.kv (m ((c : Thread nD τ).loc main_arg0)) (m ((c : Thread nD τ).loc main_arg3)) (m ((c : Thread nD τ).loc main_arg4)) b d e
  refine Finset.sum_congr rfl fun d _ => ?_
  rw [V3_v0 m c, V3_v3 m c, V3_v4 m c, V1_v0 m c, V1_v3 m c, V1_v4 m c]
  exact congrArg _ (kv_entry m c b d e)

end Cert.KernelIdeal.Val

end
-- ==== Proof.RefSide.lean ====
import proofs.«142361_j103079215338_1_alg».proof.Proof.Gen.ReferenceIdeal.Run
import proofs.«142361_j103079215338_1_alg».proof.Proof.Gen.ReferenceIdeal.Read
import proofs.«142361_j103079215338_1_alg».proof.Proof.Spec

/-
  The reference side of the value claim: the reference program's last stage, read index by index, is the
  specification's array. Each projection stage is a row of `x` against a column of a weight matrix; the
  gate is the pointwise product of two of them; the key-value stage sums key times value over the 4096 rows
  of one batch; the last stage sums the gate against it over the 1024 features. Both sides are the same
  sums of the same products, so nothing about finiteness is needed.
-/

noncomputable section

namespace Cert.RefSide

open Cert.ReferenceIdeal Cert.ReferenceIdeal.Read Idealize.ShloMosaic Idealize.ShloMosaic.ValueIdx

/-- The first projection's left index at literal coordinates: row `n` of batch `b`, feature `k`. -/
theorem lidx_v0 (b : Fin 4) (n : Fin 4096) (e k : Fin 1024) : lidx_main_v0 (ix3 b n e) k = ix3 b n k :=
  funext fun a => Fin.ext (by match a with | ⟨0, _⟩ => rfl | ⟨1, _⟩ => rfl | ⟨2, _⟩ => rfl)
/-- The first projection's right index at literal coordinates: feature `k`, column `e`. -/
theorem ridx_v0 (b : Fin 4) (n : Fin 4096) (e k : Fin 1024) : ridx_main_v0 (ix3 b n e) k = ix2 k e :=
  funext fun a => Fin.ext (by match a with | ⟨0, _⟩ => rfl | ⟨1, _⟩ => rfl)
/-- The first projection stage is row `n` of batch `b` of `x` against column `e` of its weight matrix. -/
theorem v0_proj (x0 : (⟨S4x4096x1024, .f32⟩ : BufTy).Contents (Elt Ideal)) (w : (⟨S1024x1024, .f32⟩ : BufTy).Contents (Elt Ideal))
    (b : Fin 4) (n : Fin 4096) (e : Fin 1024) :
    val_main_v0 (F := Ideal) x0 w (ix3 b n e) = Cert.Spec.proj x0 w b n e := by
  rw [val_main_v0_apply]
  unfold Cert.Spec.proj
  refine Finset.sum_congr rfl fun k _ => ?_
  rw [lidx_v0, ridx_v0]

/-- The second projection's left index at literal coordinates: row `n` of batch `b`, feature `k`. -/
theorem lidx_v1 (b : Fin 4) (n : Fin 4096) (e k : Fin 1024) : lidx_main_v1 (ix3 b n e) k = ix3 b n k :=
  funext fun a => Fin.ext (by match a with | ⟨0, _⟩ => rfl | ⟨1, _⟩ => rfl | ⟨2, _⟩ => rfl)
/-- The second projection's right index at literal coordinates: feature `k`, column `e`. -/
theorem ridx_v1 (b : Fin 4) (n : Fin 4096) (e k : Fin 1024) : ridx_main_v1 (ix3 b n e) k = ix2 k e :=
  funext fun a => Fin.ext (by match a with | ⟨0, _⟩ => rfl | ⟨1, _⟩ => rfl)
/-- The second projection stage is row `n` of batch `b` of `x` against column `e` of its weight matrix. -/
theorem v1_proj (x0 : (⟨S4x4096x1024, .f32⟩ : BufTy).Contents (Elt Ideal)) (w : (⟨S1024x1024, .f32⟩ : BufTy).Contents (Elt Ideal))
    (b : Fin 4) (n : Fin 4096) (e : Fin 1024) :
    val_main_v1 (F := Ideal) x0 w (ix3 b n e) = Cert.Spec.proj x0 w b n e := by
  rw [val_main_v1_apply]
  unfold Cert.Spec.proj
  refine Finset.sum_congr rfl fun k _ => ?_
  rw [lidx_v1, ridx_v1]

/-- The third (the key) projection's left index at literal coordinates: row `n` of batch `b`, feature `k`. -/
theorem lidx_v2 (b : Fin 4) (n : Fin 4096) (e k : Fin 1024) : lidx_main_v2 (ix3 b n e) k = ix3 b n k :=
  funext fun a => Fin.ext (by match a with | ⟨0, _⟩ => rfl | ⟨1, _⟩ => rfl | ⟨2, _⟩ => rfl)
/-- The third (the key) projection's right index at literal coordinates: feature `k`, column `e`. -/
theorem ridx_v2 (b : Fin 4) (n : Fin 4096) (e k : Fin 1024) : ridx_main_v2 (ix3 b n e) k = ix2 k e :=
  funext fun a => Fin.ext (by match a with | ⟨0, _⟩ => rfl | ⟨1, _⟩ => rfl)
/-- The third (the key) projection stage is row `n` of batch `b` of `x` against column `e` of its weight matrix. -/
theorem v2_proj (x0 : (⟨S4x4096x1024, .f32⟩ : BufTy).Contents (Elt Ideal)) (w : (⟨S1024x1024, .f32⟩ : BufTy).Contents (Elt Ideal))
    (b : Fin 4) (n : Fin 4096) (e : Fin 1024) :
    val_main_v2 (F := Ideal) x0 w (ix3 b n e) = Cert.Spec.proj x0 w b n e := by
  rw [val_main_v2_apply]
  unfold Cert.Spec.proj
  refine Finset.sum_congr rfl fun k _ => ?_
  rw [lidx_v2, ridx_v2]

/-- The fourth (the value) projection's left index at literal coordinates: row `n` of batch `b`, feature `k`. -/
theorem lidx_v3 (b : Fin 4) (n : Fin 4096) (e k : Fin 1024) : lidx_main_v3 (ix3 b n e) k = ix3 b n k :=
  funext fun a => Fin.ext (by match a with | ⟨0, _⟩ => rfl | ⟨1, _⟩ => rfl | ⟨2, _⟩ => rfl)
/-- The fourth (the value) projection's right index at literal coordinates: feature `k`, column `e`. -/
theorem ridx_v3 (b : Fin 4) (n : Fin 4096) (e k : Fin 1024) : ridx_main_v3 (ix3 b n e) k = ix2 k e :=
  funext fun a => Fin.ext (by match a with | ⟨0, _⟩ => rfl | ⟨1, _⟩ => rfl)
/-- The fourth (the value) projection stage is row `n` of batch `b` of `x` against column `e` of its weight matrix. -/
theorem v3_proj (x0 : (⟨S4x4096x1024, .f32⟩ : BufTy).Contents (Elt Ideal)) (w : (⟨S1024x1024, .f32⟩ : BufTy).Contents (Elt Ideal))
    (b : Fin 4) (n : Fin 4096) (e : Fin 1024) :
    val_main_v3 (F := Ideal) x0 w (ix3 b n e) = Cert.Spec.proj x0 w b n e := by
  rw [val_main_v3_apply]
  unfold Cert.Spec.proj
  refine Finset.sum_congr rfl fun k _ => ?_
  rw [lidx_v3, ridx_v3]

/-- The gate stage is the product of the two query projections. -/
theorem v4_gate (x0 : (⟨S4x4096x1024, .f32⟩ : BufTy).Contents (Elt Ideal)) (x1 x2 : (⟨S1024x1024, .f32⟩ : BufTy).Contents (Elt Ideal))
    (b : Fin 4) (n : Fin 4096) (d : Fin 1024) :
    val_main_v4 (F := Ideal) x0 x1 x2 (ix3 b n d) = Cert.Spec.gate x0 x1 x2 b n d := by
  rw [val_main_v4_apply, v0_proj, v1_proj]
  rfl

/-- The key-value stage's left index at literal coordinates: row `k` of batch `b`, feature `d`. -/
theorem lidx_v5 (b : Fin 4) (d e : Fin 1024) (k : Fin 4096) :
    lidx_main_v5 (ix3 b d e) k = ix3 b k d :=
  funext fun a => Fin.ext (by match a with | ⟨0, _⟩ => rfl | ⟨1, _⟩ => rfl | ⟨2, _⟩ => rfl)
/-- The key-value stage's right index at literal coordinates: row `k` of batch `b`, feature `e`. -/
theorem ridx_v5 (b : Fin 4) (d e : Fin 1024) (k : Fin 4096) :
    ridx_main_v5 (ix3 b d e) k = ix3 b k e :=
  funext fun a => Fin.ext (by match a with | ⟨0, _⟩ => rfl | ⟨1, _⟩ => rfl | ⟨2, _⟩ => rfl)
/-- The key-value stage is batch `b`'s key-value product. -/
theorem v5_kv (x0 : (⟨S4x4096x1024, .f32⟩ : BufTy).Contents (Elt Ideal)) (x3 x4 : (⟨S1024x1024, .f32⟩ : BufTy).Contents (Elt Ideal))
    (b : Fin 4) (d e : Fin 1024) :
    val_main_v5 (F := Ideal) x0 x3 x4 (ix3 b d e) = Cert.Spec.kv x0 x3 x4 b d e := by
  rw [val_main_v5_apply]
  unfold Cert.Spec.kv
  refine Finset.sum_congr rfl fun k _ => ?_
  rw [lidx_v5, ridx_v5, v2_proj, v3_proj]

/-- The last stage's left index at literal coordinates: row `n` of batch `b`, feature `k`. -/
theorem lidx_v6 (b : Fin 4) (n : Fin 4096) (e k : Fin 1024) :
    lidx_main_v6 (ix3 b n e) k = ix3 b n k :=
  funext fun a => Fin.ext (by match a with | ⟨0, _⟩ => rfl | ⟨1, _⟩ => rfl | ⟨2, _⟩ => rfl)
/-- The last stage's right index at literal coordinates: batch `b`, features `k` and `e`. -/
theorem ridx_v6 (b : Fin 4) (n : Fin 4096) (e k : Fin 1024) :
    ridx_main_v6 (ix3 b n e) k = ix3 b k e :=
  funext fun a => Fin.ext (by match a with | ⟨0, _⟩ => rfl | ⟨1, _⟩ => rfl | ⟨2, _⟩ => rfl)
/-- The last stage is the gated query against the key-value product. -/
theorem v6_out (x0 : (⟨S4x4096x1024, .f32⟩ : BufTy).Contents (Elt Ideal)) (x1 x2 x3 x4 : (⟨S1024x1024, .f32⟩ : BufTy).Contents (Elt Ideal))
    (b : Fin 4) (n : Fin 4096) (e : Fin 1024) :
    val_main_v6 (F := Ideal) x0 x1 x2 x3 x4 (ix3 b n e) = Cert.Spec.out x0 x1 x2 x3 x4 b n e := by
  rw [val_main_v6_apply]
  unfold Cert.Spec.out
  refine Finset.sum_congr rfl fun k _ => ?_
  rw [lidx_v6, ridx_v6, v4_gate, v5_kv]

/-- The reference program's result is the specification's array. -/
theorem ref_is_spec (x0 : (⟨Cert.ReferenceIdeal.S4x4096x1024, .f32⟩ : BufTy).Contents (Elt Ideal))
    (x1 x2 x3 x4 : (⟨Cert.ReferenceIdeal.S1024x1024, .f32⟩ : BufTy).Contents (Elt Ideal)) :
    Cert.ReferenceIdeal.Read.val_main_v6 (F := Ideal) x0 x1 x2 x3 x4 = Cert.Spec.outArr x0 x1 x2 x3 x4 := by
  funext i
  obtain ⟨b, n, e, rfl⟩ : ∃ (b : Fin 4) (n : Fin 4096) (e : Fin 1024), i = ix3 b n e :=
    ⟨i 0, i 1, i 2, eq_ix3 i⟩
  exact v6_out x0 x1 x2 x3 x4 b n e

end Cert.RefSide

end
-- ==== Proof.lean ====
/-
  The certificate. Both printed kernels run the same two regions: the first accumulates, batch by batch, the product
  keyᵀ·value over the batch's eight row tiles in a scratch accumulator and writes it out at the batch's last tile; the
  second multiplies each row's gated query by its batch's product. Their frames come from one run of @main as four
  segments whose last contents are read back. At the ideal instance the result array is
  `out b n e = ∑ d, (x·Wql)(x·Wqr)[b,n,d] · ∑ n', (x·Wk)[b,n',d] (x·Wv)[b,n',e]`: the kernel's sum over rows taken
  tile by tile, the reference's taken at once, equal as sums in a commutative monoid. Nothing was rewritten by the
  idealization, so that conjunct is trivial.
-/
import proofs.«142361_j103079215338_1_alg».proof.Defs
import proofs.«142361_j103079215338_1_alg».proof.Proof.Gen.Kernel
import proofs.«142361_j103079215338_1_alg».proof.Proof.Gen.KernelIdeal
import proofs.«142361_j103079215338_1_alg».proof.Proof.Gen.ReferenceIdeal
import proofs.«142361_j103079215338_1_alg».proof.Proof.Gen.Pre_finite_inputs
import proofs.«142361_j103079215338_1_alg».proof.Proof.K.Run
import proofs.«142361_j103079215338_1_alg».proof.Proof.KI.Run
import proofs.«142361_j103079215338_1_alg».proof.Proof.Val.Main
import proofs.«142361_j103079215338_1_alg».proof.Proof.RefSide
import Idealize.ShloMosaic.Adequacy
import Idealize.ShloMosaic.Init

noncomputable section

namespace Cert.Proof

open Idealize.ShloMosaic Idealize.ShloMosaic.TcCoe Idealize.SL.Sem

/-- The word-level kernel terminates and leaves its arguments as launched. -/
theorem frame_k : Cert.frame_Kernel := fun m ρ _ => Cert.Kernel.Hand.frame (F := Bits) m ρ

/-- So does the idealized kernel. -/
theorem frame_ki : Cert.frame_KernelIdeal := fun m ρ _ => Cert.KernelIdeal.Hand.frame (F := Ideal) m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- At the ideal instance both programs end with the specification's array of the arguments. -/
theorem algebraic : Cert.algebraic_KernelIdeal_ReferenceIdeal := by
  intro m ρ m' ρ' _ hagree
  refine ⟨fun c => Cert.Spec.outArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun _ h c => ⟨(h c).1.trans (Cert.KernelIdeal.Val.result_eq m c), (h c).2⟩)
      (Cert.KernelIdeal.Hand.run_value (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v6_eq, Cert.RefSide.ref_is_spec,
      (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
